-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S32768 : Shape := ⟨1, ![32768]⟩
abbrev S1536x768 : Shape := ⟨2, ![1536, 768]⟩
abbrev S1536 : Shape := ⟨1, ![1536]⟩
abbrev S768x1536 : Shape := ⟨2, ![768, 1536]⟩
abbrev S768 : Shape := ⟨1, ![768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S1536x768 : S_.BroadcastsInDim S1536x768 (![] : Fin 0 → Fin S1536x768.rank)
  reducesTo_S1536x768_S_d0_1 : S1536x768.ReducesTo [0, 1] S_
  bcast_S_S1536 : S_.BroadcastsInDim S1536 (![] : Fin 0 → Fin S1536.rank)
  reducesTo_S1536_S_d0 : S1536.ReducesTo [0] S_
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg1 : IVec S32768 32) (main_arg5 : FVec F S768 .f32) (main_v13 : IVec S_ 1) (main_v16 : IVec S768x1536 1) : IVec S_ 1 :=
  let main_c_5 : IVec S_ 1 := constantI S_ 1 1#1
  let main_v17 : IVec S_ 1 := (fun x v => Host.reduce IntOp.andi x v reducesTo_S768x1536_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_c_8 : IVec S_ 32 := constantI S_ 32 0#32
  let main_v24 : IVec S32768 32 := broadcastInDim S32768 ![] bcast_S_S32768 main_c_8
  let main_v25 : IVec S32768 1 := cmpi .sge main_arg1 main_v24
  let main_c_9 : IVec S_ 1 := constantI S_ 1 1#1
  let main_v26 : IVec S_ 1 := (fun x v => Host.reduce IntOp.andi x v reducesTo_S32768_S_d0 h_S_) main_v25 main_c_9
  let main_v27 : IVec S_ 1 := andi main_v23 main_v26
  let main_c_10 : IVec S_ 32 := constantI S_ 32 8#32
  let main_v28 : IVec S32768 32 := broadcastInDim S32768 ![] bcast_S_S32768 main_c_10
  let main_v29 : IVec S32768 1 := cmpi .slt main_arg1 main_v28
  let main_c_11 : IVec S_ 1 := constantI S_ 1 1#1
  let main_v30 : IVec S_ 1 := (fun x v => Host.reduce IntOp.andi x v reducesTo_S32768_S_d0 h_S_) main_v29 main_c_11
  let main_v31 : IVec S_ 1 := andi main_v27 main_v30
  main_v31

def fn {F : FTy → Type} [FloatOps F] (main_arg0 : FVec F S32768x768 .f32) (main_arg1 : IVec S32768 32) (main_arg2 : FVec F S1536x768 .f32) (main_arg3 : FVec F S1536 .f32) (main_arg4 : FVec F S768x1536 .f32) (main_arg5 : FVec F S768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S1536x768 .f32 := Host.absf main_arg2
  let main_cst_0 : FVec F S_ .f32 := constant S_ .f32 0x7F800000#32
  let main_v5 : FVec F S1536x768 .f32 := broadcastInDim S1536x768 ![] bcast_S_S1536x768 main_cst_0
  let main_v6 : IVec S1536x768 1 := cmpf .olt main_v4 main_v5
  let main_c_1 : IVec S_ 1 := constantI S_ 1 1#1
  let main_v7 : IVec S_ 1 := (fun x v => Host.reduce IntOp.andi x v reducesTo_S1536x768_S_d0_1 h_S_) main_v6 main_c_1
  let main_v8 : IVec S_ 1 := andi main_v3 main_v7
  let main_v9 : FVec F S1536 .f32 := Host.absf main_arg3
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S768x1536 .f32 := Host.absf main_arg4
  let main_cst_4 : FVec F S_ .f32 := constant S_ .f32 0x7F800000#32
  let main_v15 : FVec F S768x1536 .f32 := broadcastInDim S768x1536 ![] bcast_S_S768x1536 main_cst_4
  let main_v16 : IVec S768x1536 1 := cmpf .olt main_v14 main_v15
  fn_part1 (F := F) main_arg1 main_arg5 main_v13 main_v16
-- ==== Kernel.lean ====
abbrev S32768x768 : Shape := ⟨2, ![32768, 768]⟩
abbrev S32768 : Shape := ⟨1, ![32768]⟩
abbrev S1536x768 : Shape := ⟨2, ![1536, 768]⟩
abbrev S1536 : Shape := ⟨1, ![1536]⟩
abbrev S768x1536 : Shape := ⟨2, ![768, 1536]⟩
abbrev S768 : Shape := ⟨1, ![768]⟩
abbrev S32768x1 : Shape := ⟨2, ![32768, 1]⟩
abbrev S1x1536 : Shape := ⟨2, ![1, 1536]⟩
abbrev S1x768 : Shape := ⟨2, ![1, 768]⟩
abbrev S512x1 : Shape := ⟨2, ![512, 1]⟩
abbrev S512x768 : Shape := ⟨2, ![512, 768]⟩
abbrev S384x768 : Shape := ⟨2, ![384, 768]⟩
abbrev S512x384 : Shape := ⟨2, ![512, 384]⟩
abbrev S1x384 : Shape := ⟨2, ![1, 384]⟩
abbrev S768x384 : Shape := ⟨2, ![768, 384]⟩

abbrev nBuf : Space → Nat
  | .hbm => 10
  | .vmem => 10
  | .smem => 0
  | _ => 0

abbrev bufTy : (tb : Table) → Fin (tcTables nBuf tb) → BufTy
  | .hbm, ⟨0, _⟩ => ⟨S32768x768, .f32⟩
  | .hbm, ⟨1, _⟩ => ⟨S32768, .i32⟩
  | .hbm, ⟨2, _⟩ => ⟨S1536x768, .f32⟩
  | .hbm, ⟨3, _⟩ => ⟨S1536, .f32⟩
  | .hbm, ⟨4, _⟩ => ⟨S768x1536, .f32⟩
  | .hbm, ⟨5, _⟩ => ⟨S768, .f32⟩
  | .hbm, ⟨6, _⟩ => ⟨S32768x1, .i32⟩
  | .hbm, ⟨7, _⟩ => ⟨S1x1536, .f32⟩
  | .hbm, ⟨8, _⟩ => ⟨S1x768, .f32⟩
  | .hbm, ⟨9, _⟩ => ⟨S32768x768, .f32⟩
  | .local _ .vmem, ⟨0, _⟩ => ⟨S512x1, .i32⟩
  | .local _ .vmem, ⟨1, _⟩ => ⟨S512x1, .i32⟩
  | .local _ .vmem, ⟨2, _⟩ => ⟨S512x768, .f32⟩
  | .local _ .vmem, ⟨3, _⟩ => ⟨S512x768, .f32⟩
  | .local _ .vmem, ⟨4, _⟩ => ⟨S1536x768, .f32⟩
  | .local _ .vmem, ⟨5, _⟩ => ⟨S1x1536, .f32⟩
  | .local _ .vmem, ⟨6, _⟩ => ⟨S768x1536, .f32⟩
  | .local _ .vmem, ⟨7, _⟩ => ⟨S1x768, .f32⟩
  | .local _ .vmem, ⟨8, _⟩ => ⟨S512x768, .f32⟩
  | .local _ .vmem, ⟨9, _⟩ => ⟨S512x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32768_S32768x1 : S32768.ShapeCasts S32768x1
  shapeCasts_S1536_S1x1536 : S1536.ShapeCasts S1x1536
  shapeCasts_S768_S1x768 : S768.ShapeCasts S1x768
  inb_S512x768_S512x768_0_0 : ∀ a, (![0, 0] : Fin 2 → Nat) a + S512x768.size a ≤ S512x768.size a
  h_S512x768 : 0 < S512x768.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1536x768_S384x768_0_0 : ∀ a, (![0, 0] : Fin 2 → Nat) a + S384x768.size a ≤ S1536x768.size a
  h_S384x768 : 0 < S384x768.numel
  inb_S1x1536_S1x384_0_0 : ∀ a, (![0, 0] : Fin 2 → Nat) a + S1x384.size a ≤ S1x1536.size a
  h_S1x384 : 0 < S1x384.numel
  shapeCasts_S1x384_S1x384 : S1x384.ShapeCasts S1x384
  broadcasts_S1x384_S512x384 : S1x384.Broadcasts S512x384
  iota_S512x384_d1_w32 : S512x384.Iotas .tc 32 [1]
  broadcasts_S512x1_S512x384 : S512x1.Broadcasts S512x384
  inb_S768x1536_S768x384_0_0 : ∀ a, (![0, 0] : Fin 2 → Nat) a + S768x384.size a ≤ S768x1536.size a
  h_S768x384 : 0 < S768x384.numel
  inb_S1536x768_S384x768_384_0 : ∀ a, (![384, 0] : Fin 2 → Nat) a + S384x768.size a ≤ S1536x768.size a
  inb_S1x1536_S1x384_0_384 : ∀ a, (![0, 384] : Fin 2 → Nat) a + S1x384.size a ≤ S1x1536.size a
  inb_S768x1536_S768x384_0_384 : ∀ a, (![0, 384] : Fin 2 → Nat) a + S768x384.size a ≤ S768x1536.size a
  inb_S1536x768_S384x768_768_0 : ∀ a, (![768, 0] : Fin 2 → Nat) a + S384x768.size a ≤ S1536x768.size a
  inb_S1x1536_S1x384_0_768 : ∀ a, (![0, 768] : Fin 2 → Nat) a + S1x384.size a ≤ S1x1536.size a
  inb_S768x1536_S768x384_0_768 : ∀ a, (![0, 768] : Fin 2 → Nat) a + S768x384.size a ≤ S768x1536.size a
  inb_S1536x768_S384x768_1152_0 : ∀ a, (![1152, 0] : Fin 2 → Nat) a + S384x768.size a ≤ S1536x768.size a
  inb_S1x1536_S1x384_0_1152 : ∀ a, (![0, 1152] : Fin 2 → Nat) a + S1x384.size a ≤ S1x1536.size a
  inb_S768x1536_S768x384_0_1152 : ∀ a, (![0, 1152] : Fin 2 → Nat) a + S768x384.size a ≤ S768x1536.size a
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  dot_S512x768_S384x768_S512x384_1_1_0_0_n_n_wf : DotDims.WF S512x768 S384x768 S512x384 [1] [1] [0] [0] [] []
  dot_S512x384_S768x384_S512x768_1_1_0_0_n_n_wf : DotDims.WF S512x384 S768x384 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S32768x1.size a
  hwx0_0 : ∀ i : grid0.Coords, EltTy.bits .i32 = 32 ∨ (Rect.block (s := S32768x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S32768x768.size a
  hwx0_1 : ∀ i : grid0.Coords, EltTy.bits .f32 = 32 ∨ (Rect.block (s := S32768x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x768.size a ≤ S1536x768.size a
  hwx0_2 : ∀ i : grid0.Coords, EltTy.bits .f32 = 32 ∨ (Rect.block (s := S1536x768) S1536x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x1536.size a ≤ S768x1536.size a
  hwx0_4 : ∀ i : grid0.Coords, EltTy.bits .f32 = 32 ∨ (Rect.block (s := S768x1536) S768x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S32768x768.size a
  hwx0_6 : ∀ i : grid0.Coords, EltTy.bits .f32 = 32 ∨ (Rect.block (s := S32768x768) S512x768.size (cc0_transform_6 i) (hinb0_6 i)).WholeWords (EltTy.packing .f32)

variable [Facts₀]

def dot_S512x768_S384x768_S512x384_1_1_0_0_n_n : DotDims S512x768 S384x768 S512x384 where
  lhsContracting := [1]
  rhsContracting := [1]
  lhsNonContracting := [0]
  rhsNonContracting := [0]
  lhsBatch := []
  rhsBatch := []
  wf := dot_S512x768_S384x768_S512x384_1_1_0_0_n_n_wf
def dot_S512x384_S768x384_S512x768_1_1_0_0_n_n : DotDims S512x384 S768x384 S512x768 where
  lhsContracting := [1]
  rhsContracting := [1]
  lhsNonContracting := [0]
  rhsNonContracting := [0]
  lhsBatch := []
  rhsBatch := []
  wf := dot_S512x384_S768x384_S512x768_1_1_0_0_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1536x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x768 : Shape := ⟨2, ![32768, 768]⟩
abbrev S32768 : Shape := ⟨1, ![32768]⟩
abbrev S1536x768 : Shape := ⟨2, ![1536, 768]⟩
abbrev S1536 : Shape := ⟨1, ![1536]⟩
abbrev S768x1536 : Shape := ⟨2, ![768, 1536]⟩
abbrev S768 : Shape := ⟨1, ![768]⟩
abbrev S8 : Shape := ⟨1, ![8]⟩
abbrev S32768x1536 : Shape := ⟨2, ![32768, 1536]⟩
abbrev S1x1536 : Shape := ⟨2, ![1, 1536]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S1x768 : Shape := ⟨2, ![1, 768]⟩

abbrev nBuf : Space → Nat
  | .hbm => 57
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S32768, .i32⟩
  | .hbm, ⟨2, _⟩ => ⟨S1536x768, .f32⟩
  | .hbm, ⟨3, _⟩ => ⟨S1536, .f32⟩
  | .hbm, ⟨4, _⟩ => ⟨S768x1536, .f32⟩
  | .hbm, ⟨5, _⟩ => ⟨S768, .f32⟩
  | .hbm, ⟨6, _⟩ => ⟨S8, .i32⟩
  | .hbm, ⟨7, _⟩ => ⟨S768x1536, .f32⟩
  | .hbm, ⟨8, _⟩ => ⟨S32768x1536, .f32⟩
  | .hbm, ⟨9, _⟩ => ⟨S1x1536, .f32⟩
  | .hbm, ⟨10, _⟩ => ⟨S32768x1536, .f32⟩
  | .hbm, ⟨11, _⟩ => ⟨S32768x1536, .f32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S1, .i32⟩
  | .hbm, ⟨21, _⟩ => ⟨S_, .i32⟩
  | .hbm, ⟨22, _⟩ => ⟨S32768x1, .i32⟩
  | .hbm, ⟨23, _⟩ => ⟨S32768x1, .i1⟩
  | .hbm, ⟨24, _⟩ => ⟨S1x1, .i32⟩
  | .hbm, ⟨25, _⟩ => ⟨S32768x1, .i32⟩
  | .hbm, ⟨26, _⟩ => ⟨S32768x1, .i1⟩
  | .hbm, ⟨27, _⟩ => ⟨S32768x1, .i1⟩
  | .hbm, ⟨28, _⟩ => ⟨S_, .i1⟩
  | .hbm, ⟨29, _⟩ => ⟨S32768, .i1⟩
  | .hbm, ⟨30, _⟩ => ⟨S32768, .i32⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S1536, .i32⟩
  | .hbm, ⟨35, _⟩ => ⟨S1x1536, .i32⟩
  | .hbm, ⟨36, _⟩ => ⟨S32768x1, .i32⟩
  | .hbm, ⟨37, _⟩ => ⟨S32768x1536, .i32⟩
  | .hbm, ⟨38, _⟩ => ⟨S32768x1536, .i32⟩
  | .hbm, ⟨39, _⟩ => ⟨S32768x1536, .i1⟩
  | .hbm, ⟨40, _⟩ => ⟨S32768x1536, .f32⟩
  | .hbm, ⟨41, _⟩ => ⟨S32768x1536, .f32⟩
  | .hbm, ⟨42, _⟩ => ⟨S32768x1536, .f32⟩
  | .hbm, ⟨43, _⟩ => ⟨S_, .f32⟩
  | .hbm, ⟨44, _⟩ => ⟨S32768x1536, .f32⟩
  | .hbm, ⟨45, _⟩ => ⟨S32768x1536, .f32⟩
  | .hbm, ⟨46, _⟩ => ⟨S_, .f32⟩
  | .hbm, ⟨47, _⟩ => ⟨S32768x1536, .f32⟩
  | .hbm, ⟨48, _⟩ => ⟨S32768x1536, .f32⟩
  | .hbm, ⟨49, _⟩ => ⟨S32768x1536, .f32⟩
  | .hbm, ⟨50, _⟩ => ⟨S32768x1536, .f32⟩
  | .hbm, ⟨51, _⟩ => ⟨S32768x1536, .f32⟩
  | .hbm, ⟨52, _⟩ => ⟨S1536x768, .f32⟩
  | .hbm, ⟨53, _⟩ => ⟨S32768x768, .f32⟩
  | .hbm, ⟨54, _⟩ => ⟨S1x768, .f32⟩
  | .hbm, ⟨55, _⟩ => ⟨S32768x768, .f32⟩
  | .hbm, ⟨56, _⟩ => ⟨S32768x768, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_c_4 : Ref sig .tc := ⟨.hbm, 31, rfl⟩
abbrev main_call0_v14 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩

abbrev nD : Nat := 1
abbrev τ : Topo := Topo.v7x

variable {F : FTy → Type} [FloatOps F]

class Facts₀ : Prop where
  transposes_S1536x768_S768x1536_1_0 : S1536x768.Transposes [1, 0] S768x1536
  bcast_S1536_S1x1536_1 : S1536.BroadcastsInDim S1x1536 (![1] : Fin 1 → Fin S1x1536.rank)
  bcast_S1x1536_S32768x1536_0_1 : S1x1536.BroadcastsInDim S32768x1536 (![0, 1] : Fin 2 → Fin S32768x1536.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768x1_S32768x1536_0_1 : S32768x1.BroadcastsInDim S32768x1536 (![0, 1] : Fin 2 → Fin S32768x1536.rank)
  bcast_S_S32768x1536 : S_.BroadcastsInDim S32768x1536 (![] : Fin 0 → Fin S32768x1536.rank)
  transposes_S768x1536_S1536x768_1_0 : S768x1536.Transposes [1, 0] S1536x768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  dot_S32768x768_S768x1536_S32768x1536_1_0_0_1_n_n_wf : DotDims.WF S32768x768 S768x1536 S32768x1536 [1] [0] [0] [1] [] []
  gather_S8_S32768x1_S32768_n_0_n_n_0_1_1_wf : GatherDims.WF S8 S32768x1 S32768 [] [0] [] [0] [] 1 ![1]
  dot_S32768x1536_S1536x768_S32768x768_1_0_0_1_n_n_wf : DotDims.WF S32768x1536 S1536x768 S32768x768 [1] [0] [0] [1] [] []

variable [Facts₀]

def dot_S32768x768_S768x1536_S32768x1536_1_0_0_1_n_n : DotDims S32768x768 S768x1536 S32768x1536 where
  lhsContracting := [1]
  rhsContracting := [0]
  lhsNonContracting := [0]
  rhsNonContracting := [1]
  lhsBatch := []
  rhsBatch := []
  wf := dot_S32768x768_S768x1536_S32768x1536_1_0_0_1_n_n_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def dot_S32768x1536_S1536x768_S32768x768_1_0_0_1_n_n : DotDims S32768x1536 S1536x768 S32768x768 where
  lhsContracting := [1]
  rhsContracting := [0]
  lhsNonContracting := [0]
  rhsNonContracting := [1]
  lhsBatch := []
  rhsBatch := []
  wf := dot_S32768x1536_S1536x768_S32768x768_1_0_0_1_n_n_wf

class Facts : Prop extends Facts₀ where

variable [Facts]
-- ==== Proof.LibMatmulRowRow.lean ====
/-
  A rows-by-rows product read at an entry (a general lemma: nothing here depends on a program).

  For a left factor l of shape [A, K] and a right factor r of shape [C, K], the dimension numbers "contract axis 1 of l
  with axis 1 of r, no batch axis" give a result of shape [A, C].  Into a zero accumulator, over the extended reals,
  its entry (p, q) is the sum over k < K of l (p, k) · r (q, k): the product of l with the transpose of r, the
  transpose never formed.  Any sizes A, K, C.  A printed record with lists [1], [1], [0], [0], [], [] over such shapes
  is `DotDims.transposedRhs A K C` by `rfl`.
-/
import Idealize.ShloMosaic.Lib.ValueIdx
import Idealize.ShloMosaic.PureOps.Ideal.Laws

noncomputable section

namespace Cert.Lib.MatmulRowRow

open Idealize.ShloMosaic Idealize.ShloMosaic.ValueIdx

variable {A K C : Nat}

/-- The left factor is read at the result's row … -/
theorem lhs0 (j : (⟨2, ![A, C]⟩ : Shape).Idx) (q : (DotDims.transposedRhs A K C).contr.Idx) :
    ((DotDims.transposedRhs A K C).lhsIdx j q 0).val = (j 0).val := by
  unfold DotDims.lhsIdx
  rw [dif_neg (show ¬(0 : Fin 2) ∈ (DotDims.transposedRhs A K C).lhsBatch from List.not_mem_nil),
    dif_pos (show (0 : Fin 2) ∈ (DotDims.transposedRhs A K C).lhsNonContracting from List.mem_singleton.mpr rfl)]
  rfl

/-- … and at the contraction coordinate as its column. -/
theorem lhs1 (j : (⟨2, ![A, C]⟩ : Shape).Idx) (q : (DotDims.transposedRhs A K C).contr.Idx) :
    ((DotDims.transposedRhs A K C).lhsIdx j q 1).val = (q ⟨0, Nat.one_pos⟩).val :=
  (DotDims.transposedRhs A K C).lhsIdx_val_of_single rfl j q

/-- The right factor is read at the row that is the result's column … -/
theorem rhs0 (j : (⟨2, ![A, C]⟩ : Shape).Idx) (q : (DotDims.transposedRhs A K C).contr.Idx) :
    ((DotDims.transposedRhs A K C).rhsIdx j q 0).val = (j 1).val := by
  unfold DotDims.rhsIdx
  rw [dif_neg (show ¬(0 : Fin 2) ∈ (DotDims.transposedRhs A K C).rhsBatch from List.not_mem_nil),
    dif_pos (show (0 : Fin 2) ∈ (DotDims.transposedRhs A K C).rhsNonContracting from List.mem_singleton.mpr rfl)]
  rfl

/-- … and at the contraction coordinate as its column. -/
theorem rhs1 (j : (⟨2, ![A, C]⟩ : Shape).Idx) (q : (DotDims.transposedRhs A K C).contr.Idx) :
    ((DotDims.transposedRhs A K C).rhsIdx j q 1).val = (q ⟨0, Nat.one_pos⟩).val :=
  (DotDims.transposedRhs A K C).rhsIdx_val_of_single rfl j q

/-- The contraction at entry (p, q) is the sum over the K products l (p, k) · r (q, k). -/
theorem contr_sum (l : (⟨2, ![A, K]⟩ : Shape).Idx → EReal) (r : (⟨2, ![C, K]⟩ : Shape).Idx → EReal)
    (p : Fin A) (q : Fin C) :
    ∑ s : (DotDims.transposedRhs A K C).contr.Idx,
        l ((DotDims.transposedRhs A K C).lhsIdx (ix2 p q) s) * r ((DotDims.transposedRhs A K C).rhsIdx (ix2 p q) s)
      = ∑ k : Fin K, l (ix2 p k) * r (ix2 q k) := by
  rw [← Equiv.sum_comp (contrEquiv1 (DotDims.transposedRhs A K C) K rfl rfl).symm]
  refine Finset.sum_congr rfl fun k _ => ?_
  have hk := contrEquiv1_symm_val (DotDims.transposedRhs A K C) K rfl rfl k
  have el : (DotDims.transposedRhs A K C).lhsIdx (ix2 p q)
      ((contrEquiv1 (DotDims.transposedRhs A K C) K rfl rfl).symm k) = ix2 p k := funext fun a => Fin.ext (by
    match a with
    | ⟨0, _⟩ => exact lhs0 _ _
    | ⟨1, _⟩ => exact (lhs1 _ _).trans hk)
  have er : (DotDims.transposedRhs A K C).rhsIdx (ix2 p q)
      ((contrEquiv1 (DotDims.transposedRhs A K C) K rfl rfl).symm k) = ix2 q k := funext fun a => Fin.ext (by
    match a with
    | ⟨0, _⟩ => exact rhs0 _ _
    | ⟨1, _⟩ => exact (rhs1 _ _).trans hk)
  rw [el, er]

/-- Entry (p, q) of the product into a zero accumulator. -/
theorem matmul_zero_apply {φ₁ φ₂ : FTy} (prec : Option ContractPrecision)
    (l : FVec Ideal ⟨2, ![A, K]⟩ φ₁) (r : FVec Ideal ⟨2, ![C, K]⟩ φ₂) (p : Fin A) (q : Fin C) :
    FloatOps.matmul (DotDims.transposedRhs A K C) prec l r (constant ⟨2, ![A, C]⟩ .f32 0x00000000#32) (ix2 p q)
      = ∑ k : Fin K, (l (ix2 p k) : EReal) * (r (ix2 q k) : EReal) := by
  rw [Ideal.matmul_constant_zero_apply]
  exact contr_sum l r p q

end Cert.Lib.MatmulRowRow

end
-- ==== Proof.Spec.lean ====
/-
  The nested-width gated perceptron, as ONE function of its six arrays.

  For a token n with expert word e the kept width is (e + 1) · 192, computed in 32-bit words.  Hidden unit c of token n
  has pre-activation z = Σ_k x[n, k] · w1[c, k] + b1[c]; it contributes z · z · logistic z when c is below the kept
  width, read signed, and nothing otherwise.  Entry (n, i) of the result is Σ_c hidden[n, c] · w2[i, c] + b2[i].
  Everything is on the extended reals; no finiteness is used anywhere below.
-/
import Idealize.ShloMosaic.Lib.ValueIdx
import Idealize.ShloMosaic.PureOps.Ideal

noncomputable section

namespace Cert.Mlp

open Idealize.ShloMosaic Idealize.ShloMosaic.ValueIdx

abbrev SX : Shape := ⟨2, ![32768, 768]⟩
abbrev SE : Shape := ⟨1, ![32768]⟩
abbrev SW1 : Shape := ⟨2, ![1536, 768]⟩
abbrev SB1 : Shape := ⟨1, ![1536]⟩
abbrev SW2 : Shape := ⟨2, ![768, 1536]⟩
abbrev SB2 : Shape := ⟨1, ![768]⟩

/-- The pre-activation of hidden unit c for token n. -/
def pre (x : SX.Idx → EReal) (w1 : SW1.Idx → EReal) (b1 : SB1.Idx → EReal) (n : Fin 32768) (c : Fin 1536) : EReal :=
  (∑ k : Fin 768, x (ix2 n k) * w1 (ix2 c k)) + b1 (ix1 c)

/-- The self-gated activation z · z · logistic z. -/
def act (z : EReal) : EReal := z * z * Ideal.logistic z

/-- The kept width of expert word e: (e + 1) · 192, in 32-bit words. -/
def width (e : BitVec 32) : BitVec 32 := (e + 1#32) * 192#32

/-- Hidden unit c of token n: its activation when c is below the token's kept width, else nothing. -/
def hid (em : SE.Idx → BitVec 32) (x : SX.Idx → EReal) (w1 : SW1.Idx → EReal) (b1 : SB1.Idx → EReal)
    (n : Fin 32768) (c : Fin 1536) : EReal :=
  if (BitVec.ofNat 32 c.val).slt (width (em (ix1 n))) then act (pre x w1 b1 n c) else 0

/-- Entry (n, i) of the result. -/
def entry (em : SE.Idx → BitVec 32) (x : SX.Idx → EReal) (w1 : SW1.Idx → EReal) (b1 : SB1.Idx → EReal)
    (w2 : SW2.Idx → EReal) (b2 : SB2.Idx → EReal) (n : Fin 32768) (i : Fin 768) : EReal :=
  (∑ c : Fin 1536, hid em x w1 b1 n c * w2 (ix2 i c)) + b2 (ix1 i)

/-- The whole result array. -/
def G (em : SE.Idx → BitVec 32) (x : SX.Idx → EReal) (w1 : SW1.Idx → EReal) (b1 : SB1.Idx → EReal)
    (w2 : SW2.Idx → EReal) (b2 : SB2.Idx → EReal) : SX.Idx → EReal :=
  fun j => entry em x w1 b1 w2 b2 (j 0) (j 1)

theorem G_apply (em : SE.Idx → BitVec 32) (x : SX.Idx → EReal) (w1 : SW1.Idx → EReal) (b1 : SB1.Idx → EReal)
    (w2 : SW2.Idx → EReal) (b2 : SB2.Idx → EReal) (n : Fin 32768) (i : Fin 768) :
    G em x w1 b1 w2 b2 (ix2 n i) = entry em x w1 b1 w2 b2 n i := rfl

/-- The expert words in range: each is one of 0 … 7, read signed. -/
def InRange (em : SE.Idx → BitVec 32) : Prop :=
  ∀ n : Fin 32768, 0 ≤ (em (ix1 n)).toInt ∧ (em (ix1 n)).toInt < 8

/-- The table of kept widths the reference indexes: 192 · (e + 1) for e = 0 … 7. -/
def widthTable : Fin 8 → BitVec 32 := fun
  | 0 => 192#32 | 1 => 384#32 | 2 => 576#32 | 3 => 768#32 | 4 => 960#32 | 5 => 1152#32 | 6 => 1344#32 | 7 => 1536#32

/-- Each table entry is the computed width of its own position. -/
theorem widthTable_eq (k : Fin 8) : widthTable k = width (BitVec.ofNat 32 k.val) := by
  fin_cases k <;> rfl

/-- A word that reads non-negative, signed, is the word of that value. -/
theorem eq_ofNat_of_nonneg (e : BitVec 32) (h0 : 0 ≤ e.toInt) : e = BitVec.ofNat 32 e.toInt.toNat := by
  have h : BitVec.ofInt 32 e.toInt = e := BitVec.ofInt_toInt
  rw [← Int.toNat_of_nonneg h0, BitVec.ofInt_natCast] at h
  exact h.symm

/-- For an expert word in range, the table's entry is the computed width. -/
theorem width_eq_table (e : BitVec 32) (h0 : 0 ≤ e.toInt) (h8 : e.toInt < 8) :
    widthTable ⟨e.toInt.toNat, by omega⟩ = width e :=
  (widthTable_eq ⟨e.toInt.toNat, by omega⟩).trans (congrArg width (eq_ofNat_of_nonneg e h0).symm)

end Cert.Mlp

end
-- ==== Proof.LibGatedChunk.lean ====
/-
  One chunk of the gated perceptron, read at an entry (general lemmas over any sizes: nothing here depends on a program).

  For a block x of R tokens by K features, H hidden rows w of length K with a bias row b, kept widths th (one word per
  token, as a column), a column offset off, and O output rows v of length H:
    the pre-activation at (p, c) is Σ_k x (p, k) · w (c, k) + b (0, c);
    the column's number is c + off, and it is kept when that word is below th (p, 0), read signed;
    the chunk's contribution to entry (p, q) is Σ_c (kept ? gate : 0) · v (q, c).
-/
import Idealize.ShloMosaic.Lib.ValueIdx
import Idealize.ShloMosaic.Lib.Pipeline.Value
import Idealize.ShloMosaic.PureOps.Ideal.Laws
import proofs.«160457_g67937792688175_cont_sun_m_1187_11_alg».proof.Proof.LibMatmulRowRow
import proofs.«160457_g67937792688175_cont_sun_m_1187_11_alg».proof.Proof.Spec

noncomputable section

namespace Cert.Lib.GatedChunk

open Idealize.ShloMosaic Idealize.ShloMosaic.ValueIdx

variable {R K H O : Nat}

/-- A one-row matrix [1, H] through an identity shape cast, broadcast down R rows, at (p, c), is the row at c. -/
theorem rowBcast_apply {α : Type} (b : (⟨2, ![1, H]⟩ : Shape).Idx → α)
    (hc : (⟨2, ![1, H]⟩ : Shape).ShapeCasts ⟨2, ![1, H]⟩) (hb : (⟨2, ![1, H]⟩ : Shape).Broadcasts ⟨2, ![R, H]⟩)
    (p : Fin R) (c : Fin H) :
    broadcastTo ⟨2, ![R, H]⟩ (shapeCast ⟨2, ![1, H]⟩ b hc) hb (ix2 p c) = b (ix2 (0 : Fin 1) c) := by
  rw [shapeCast_self]
  refine broadcastTo_apply b hb (ix2 p c) (ix2 (0 : Fin 1) c) ?_
  intro a
  match a with
  | ⟨0, _⟩ => simp
  | ⟨1, _⟩ =>
    show c.val = if H = 1 then 0 else c.val
    split
    · have := c.isLt; omega
    · rfl

/-- A one-column matrix [R, 1] broadcast along H columns, at (p, c), is the column at p. -/
theorem colBcast_apply {α : Type} (t : (⟨2, ![R, 1]⟩ : Shape).Idx → α)
    (hb : (⟨2, ![R, 1]⟩ : Shape).Broadcasts ⟨2, ![R, H]⟩) (p : Fin R) (c : Fin H) :
    broadcastTo ⟨2, ![R, H]⟩ t hb (ix2 p c) = t (ix2 p (0 : Fin 1)) := by
  refine broadcastTo_apply t hb (ix2 p c) (ix2 p (0 : Fin 1)) ?_
  intro a
  match a with
  | ⟨0, _⟩ =>
    show p.val = if R = 1 then 0 else p.val
    split
    · have := p.isLt; omega
    · rfl
  | ⟨1, _⟩ => simp

/-- The pre-activation at (p, c). -/
theorem preact_apply (x : FVec Ideal ⟨2, ![R, K]⟩ .f32) (w : FVec Ideal ⟨2, ![H, K]⟩ .f32)
    (b : FVec Ideal ⟨2, ![1, H]⟩ .f32)
    (hc : (⟨2, ![1, H]⟩ : Shape).ShapeCasts ⟨2, ![1, H]⟩) (hb : (⟨2, ![1, H]⟩ : Shape).Broadcasts ⟨2, ![R, H]⟩)
    (p : Fin R) (c : Fin H) :
    addf (matmul (DotDims.transposedRhs R K H) none x w (constant ⟨2, ![R, H]⟩ .f32 0x00000000#32))
        (broadcastTo ⟨2, ![R, H]⟩ (shapeCast ⟨2, ![1, H]⟩ b hc) hb) (ix2 p c)
      = (∑ k : Fin K, x (ix2 p k) * w (ix2 c k)) + b (ix2 (0 : Fin 1) c) := by
  show FloatOps.matmul (DotDims.transposedRhs R K H) none x w (constant ⟨2, ![R, H]⟩ .f32 0x00000000#32) (ix2 p c)
      + broadcastTo ⟨2, ![R, H]⟩ (shapeCast ⟨2, ![1, H]⟩ b hc) hb (ix2 p c) = _
  rw [Cert.Lib.MatmulRowRow.matmul_zero_apply, rowBcast_apply]

/-- The gate of any pre-activation array, at an entry. -/
theorem gate_apply {s : Shape} (z : FVec Ideal s .f32) (j : s.Idx) :
    mulf (mulf z z) (logistic z) j = Cert.Mlp.act (z j) := rfl

/-- Whether column c of the chunk is kept for token p: its number c + off against the token's width. -/
theorem keep_apply (off : BitVec 32) (th : IVec ⟨2, ![R, 1]⟩ 32)
    (hi : (⟨2, ![R, H]⟩ : Shape).Iotas .tc 32 [1]) (hb : (⟨2, ![R, 1]⟩ : Shape).Broadcasts ⟨2, ![R, H]⟩)
    (p : Fin R) (c : Fin H) :
    cmpi .slt (addi (iota .tc ⟨2, ![R, H]⟩ 32 [1] hi) (broadcast ⟨2, ![R, H]⟩ off)) (broadcastTo ⟨2, ![R, H]⟩ th hb) (ix2 p c)
      = BitVec.ofBool ((BitVec.ofNat 32 c.val + off).slt (th (ix2 p (0 : Fin 1)))) := by
  show IntOp.cmpi .slt (IntOp.addi (iota .tc ⟨2, ![R, H]⟩ 32 [1] hi (ix2 p c)) off) (broadcastTo ⟨2, ![R, H]⟩ th hb (ix2 p c)) = _
  rw [iota_single_apply, colBcast_apply]
  rfl

/-- The chunk's contribution to entry (p, q): the kept gates against the output rows. -/
theorem masked_apply (keep : IVec ⟨2, ![R, H]⟩ 1) (a : FVec Ideal ⟨2, ![R, H]⟩ .f32) (v : FVec Ideal ⟨2, ![O, H]⟩ .f32)
    (p : Fin R) (q : Fin O) :
    matmul (DotDims.transposedRhs R H O) none
        (select keep a (broadcast ⟨2, ![R, H]⟩ (Scalar.ofBits (F := Ideal) .f32 0x00000000#32))) v
        (constant ⟨2, ![R, O]⟩ .f32 0x00000000#32) (ix2 p q)
      = ∑ c : Fin H, (if keep (ix2 p c) = 1#1 then a (ix2 p c) else 0) * v (ix2 q c) := by
  show FloatOps.matmul (DotDims.transposedRhs R H O) none _ v (constant ⟨2, ![R, O]⟩ .f32 0x00000000#32) (ix2 p q) = _
  rw [Cert.Lib.MatmulRowRow.matmul_zero_apply]
  refine Finset.sum_congr rfl fun c _ => ?_
  congr 1
  show Scalar.select (keep (ix2 p c)) (a (ix2 p c)) (Ideal.ofBits .f32 0x00000000#32) = _
  rw [Ideal.ofBits_zero_f32]
  rfl

/-- The chunk's pre-activation array: the block against the hidden rows, plus the bias row down the rows. -/
abbrev preArr (x : FVec Ideal ⟨2, ![R, K]⟩ .f32) (w : FVec Ideal ⟨2, ![H, K]⟩ .f32) (b : FVec Ideal ⟨2, ![1, H]⟩ .f32)
    (hc : (⟨2, ![1, H]⟩ : Shape).ShapeCasts ⟨2, ![1, H]⟩) (hb : (⟨2, ![1, H]⟩ : Shape).Broadcasts ⟨2, ![R, H]⟩) :
    FVec Ideal ⟨2, ![R, H]⟩ .f32 :=
  addf (matmul (DotDims.transposedRhs R K H) none x w (constant ⟨2, ![R, H]⟩ .f32 0x00000000#32))
    (broadcastTo ⟨2, ![R, H]⟩ (shapeCast ⟨2, ![1, H]⟩ b hc) hb)

theorem ite_ofBool {α : Type} (t : Bool) (u v : α) : (if BitVec.ofBool t = 1#1 then u else v) = if t then u else v := by
  cases t <;> rfl

/-- ONE CHUNK's contribution to entry (p, q): over its H columns, the gate of the pre-activation where the column's
    number c + off is below the token's width, against the output rows. -/
theorem chunk_apply (x : FVec Ideal ⟨2, ![R, K]⟩ .f32) (w : FVec Ideal ⟨2, ![H, K]⟩ .f32) (b : FVec Ideal ⟨2, ![1, H]⟩ .f32)
    (hc : (⟨2, ![1, H]⟩ : Shape).ShapeCasts ⟨2, ![1, H]⟩) (hb : (⟨2, ![1, H]⟩ : Shape).Broadcasts ⟨2, ![R, H]⟩)
    (off : BitVec 32) (th : IVec ⟨2, ![R, 1]⟩ 32)
    (hi : (⟨2, ![R, H]⟩ : Shape).Iotas .tc 32 [1]) (hbt : (⟨2, ![R, 1]⟩ : Shape).Broadcasts ⟨2, ![R, H]⟩)
    (v : FVec Ideal ⟨2, ![O, H]⟩ .f32) (p : Fin R) (q : Fin O) :
    matmul (DotDims.transposedRhs R H O) none
        (select (cmpi .slt (addi (iota .tc ⟨2, ![R, H]⟩ 32 [1] hi) (broadcast ⟨2, ![R, H]⟩ off)) (broadcastTo ⟨2, ![R, H]⟩ th hbt))
          (mulf (mulf (preArr x w b hc hb) (preArr x w b hc hb)) (logistic (preArr x w b hc hb)))
          (broadcast ⟨2, ![R, H]⟩ (Scalar.ofBits (F := Ideal) .f32 0x00000000#32))) v
        (constant ⟨2, ![R, O]⟩ .f32 0x00000000#32) (ix2 p q)
      = ∑ c : Fin H, (if (BitVec.ofNat 32 c.val + off).slt (th (ix2 p (0 : Fin 1))) then
            Cert.Mlp.act ((∑ k : Fin K, x (ix2 p k) * w (ix2 c k)) + b (ix2 (0 : Fin 1) c)) else 0) * v (ix2 q c) := by
  rw [masked_apply]
  refine Finset.sum_congr rfl fun c _ => ?_
  rw [keep_apply, gate_apply, ite_ofBool,
    show preArr x w b hc hb (ix2 p c) = _ from preact_apply x w b hc hb p c]

end Cert.Lib.GatedChunk

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.KernelBlock.lean ====
/-
  What the kernel body leaves in the output block, read at an entry.

  The body sees a block of 512 tokens.  It runs four chunks of 384 hidden units each (rows 384·s … 384·s + 383 of w1,
  the same columns of b1 and w2), adds the four contributions in order and then the bias row b2.  Chunk s's column c
  has number c + 384·s, so over the four chunks the columns are exactly 0 … 1535, each once: the body's result at
  (p, q) is the sum over ALL 1536 hidden units of the kept gate against w2, plus b2.
-/
import proofs.«160457_g67937792688175_cont_sun_m_1187_11_alg».proof.Proof.Gen.KernelIdeal.Frame
import proofs.«160457_g67937792688175_cont_sun_m_1187_11_alg».proof.Proof.LibGatedChunk
import proofs.«160457_g67937792688175_cont_sun_m_1187_11_alg».proof.Proof.LibBlockSum
import proofs.«160457_g67937792688175_cont_sun_m_1187_11_alg».proof.Proof.Spec

noncomputable section

namespace Cert.KernelIdeal.HandValue

open Cert.KernelIdeal Cert.KernelIdeal.Gen Idealize.ShloMosaic Idealize.ShloMosaic.ValueIdx

theorem hz : (![0, 0] : Fin 2 → Nat) = fun _ => 0 := funext fun a => by fin_cases a <;> rfl

/-- Hidden unit c of token p of a block, from the block's expert words x0, tokens x1, and the whole w1 (x2) and
    bias row b1 (x3). -/
def blkHid (x0 : Vec Ideal S512x1 .i32) (x1 : Vec Ideal S512x768 .f32) (x2 : Vec Ideal S1536x768 .f32)
    (x3 : Vec Ideal S1x1536 .f32) (p : Fin 512) (c : Fin 1536) : EReal :=
  if (BitVec.ofNat 32 c.val).slt (Cert.Mlp.width (x0 (ix2 p (0 : Fin 1)))) then
    Cert.Mlp.act ((∑ k : Fin 768, x1 (ix2 p k) * x2 (ix2 c k)) + x3 (ix2 (0 : Fin 1) c)) else 0

/-- Column c of the chunk that starts at column o. -/
def colAt (o : Nat) (ho : o + 384 ≤ 1536) (c : Fin 384) : Fin 1536 := ⟨o + c.val, by have := c.isLt; omega⟩

/-- The token's kept width, as the body computes it from the block's expert word. -/
theorem th_apply (v1 : Vec Ideal S512x1 .i32) (p : Fin 512) :
    k0_pay2 v1 (ix2 p (0 : Fin 1)) = Cert.Mlp.width (v1 (ix2 p (0 : Fin 1))) := by
  unfold k0_pay2
  show IntOp.muli (IntOp.addi (shapeCast S512x1 v1 shapeCasts_S512x1_S512x1 (ix2 p (0 : Fin 1))) 1#32) 192#32 = _
  rw [shapeCast_self]
  rfl

/-- The body's load of the whole token block reads the block. -/
theorem ld_tokens (x1 : Vec Ideal S512x768 .f32) : View.ld x1 r0_0 = x1 := View.ld_unit_zero hz _ x1

/-- The body's load of the whole column of expert words reads the column. -/
theorem ld_words (x0 : Vec Ideal S512x1 .i32) : View.ld x0 r0_1 = x0 := View.ld_unit_zero hz _ x0

/-- A load of a 384-row band of w1 starting at row o reads row o + c. -/
theorem ld_w1 (x2 : Vec Ideal S1536x768 .f32) (o : Nat) (ho : o + 384 ≤ 1536)
    (inb : ∀ a, (![o, 0] : Fin 2 → Nat) a + S384x768.size a ≤ S1536x768.size a) (c : Fin 384) (k : Fin 768) :
    View.ld x2 (Rect.unit (s := S1536x768) ![o, 0] S384x768.size inb) (ix2 c k) = x2 (ix2 (colAt o ho c) k) := by
  show x2 _ = x2 _
  congr 1
  funext a
  apply Fin.ext
  match a with
  | ⟨0, _⟩ => show o + 1 * c.val = o + c.val; omega
  | ⟨1, _⟩ => show 0 + 1 * k.val = k.val; omega

/-- A load of 384 columns of the bias row starting at column o reads column o + c. -/
theorem ld_b1 (x3 : Vec Ideal S1x1536 .f32) (o : Nat) (ho : o + 384 ≤ 1536)
    (inb : ∀ a, (![0, o] : Fin 2 → Nat) a + S1x384.size a ≤ S1x1536.size a) (c : Fin 384) :
    View.ld x3 (Rect.unit (s := S1x1536) ![0, o] S1x384.size inb) (ix2 (0 : Fin 1) c) = x3 (ix2 (0 : Fin 1) (colAt o ho c)) := by
  show x3 _ = x3 _
  congr 1
  funext a
  apply Fin.ext
  match a with
  | ⟨0, _⟩ => rfl
  | ⟨1, _⟩ => show o + 1 * c.val = o + c.val; omega

/-- A load of a 384-column band of w2 starting at column o reads column o + c. -/
theorem ld_w2 (x4 : Vec Ideal S768x1536 .f32) (o : Nat) (ho : o + 384 ≤ 1536)
    (inb : ∀ a, (![0, o] : Fin 2 → Nat) a + S768x384.size a ≤ S768x1536.size a) (q : Fin 768) (c : Fin 384) :
    View.ld x4 (Rect.unit (s := S768x1536) ![0, o] S768x384.size inb) (ix2 q c) = x4 (ix2 q (colAt o ho c)) := by
  show x4 _ = x4 _
  congr 1
  funext a
  apply Fin.ext
  match a with
  | ⟨0, _⟩ => show 0 + 1 * q.val = q.val; omega
  | ⟨1, _⟩ => show o + 1 * c.val = o + c.val; omega

/-- THE CHUNK THAT STARTS AT COLUMN o, at entry (p, q): its 384 hidden units against w2's matching columns. -/
theorem chunk_at (o : Nat) (ho : o + 384 ≤ 1536)
    (inb2 : ∀ a, (![o, 0] : Fin 2 → Nat) a + S384x768.size a ≤ S1536x768.size a)
    (inb3 : ∀ a, (![0, o] : Fin 2 → Nat) a + S1x384.size a ≤ S1x1536.size a)
    (inb4 : ∀ a, (![0, o] : Fin 2 → Nat) a + S768x384.size a ≤ S768x1536.size a)
    (x0 : Vec Ideal S512x1 .i32) (x1 : Vec Ideal S512x768 .f32) (x2 : Vec Ideal S1536x768 .f32)
    (x3 : Vec Ideal S1x1536 .f32) (x4 : Vec Ideal S768x1536 .f32) (p : Fin 512) (q : Fin 768) :
    matmul (φ₁ := .f32) (φ₂ := .f32) (DotDims.transposedRhs 512 384 768) none
        (select (α := Ideal .f32) (cmpi .slt (addi (iota .tc S512x384 32 [1] iota_S512x384_d1_w32) (broadcast S512x384 (BitVec.ofNat 32 o)))
            (broadcastTo S512x384 (k0_pay2 (View.ld x0 r0_1)) broadcasts_S512x1_S512x384))
          (mulf (mulf
              (Cert.Lib.GatedChunk.preArr (View.ld x1 r0_0) (View.ld x2 (Rect.unit (s := S1536x768) ![o, 0] S384x768.size inb2))
                (View.ld x3 (Rect.unit (s := S1x1536) ![0, o] S1x384.size inb3)) shapeCasts_S1x384_S1x384 broadcasts_S1x384_S512x384)
              (Cert.Lib.GatedChunk.preArr (View.ld x1 r0_0) (View.ld x2 (Rect.unit (s := S1536x768) ![o, 0] S384x768.size inb2))
                (View.ld x3 (Rect.unit (s := S1x1536) ![0, o] S1x384.size inb3)) shapeCasts_S1x384_S1x384 broadcasts_S1x384_S512x384))
            (logistic
              (Cert.Lib.GatedChunk.preArr (View.ld x1 r0_0) (View.ld x2 (Rect.unit (s := S1536x768) ![o, 0] S384x768.size inb2))
                (View.ld x3 (Rect.unit (s := S1x1536) ![0, o] S1x384.size inb3)) shapeCasts_S1x384_S1x384 broadcasts_S1x384_S512x384)))
          (broadcast S512x384 (Scalar.ofBits (F := Ideal) .f32 0x00000000#32)))
        (View.ld x4 (Rect.unit (s := S768x1536) ![0, o] S768x384.size inb4))
        (constant S512x768 .f32 0x00000000#32) (ix2 p q)
      = ∑ c : Fin 384, blkHid x0 x1 x2 x3 p (colAt o ho c) * x4 (ix2 q (colAt o ho c)) := by
  refine (Cert.Lib.GatedChunk.chunk_apply (R := 512) (K := 768) (H := 384) (O := 768) _ _ _ _ _ _ _ _ _ _ p q).trans ?_
  refine Finset.sum_congr rfl fun c _ => ?_
  rw [th_apply, ld_w2 x4 o ho inb4, ld_b1 x3 o ho inb3, ld_tokens x1, ld_words x0]
  simp only [ld_w1 x2 o ho inb2]
  have hcol : BitVec.ofNat 32 c.val + BitVec.ofNat 32 o = BitVec.ofNat 32 (colAt o ho c).val := by
    show _ = BitVec.ofNat 32 (o + c.val)
    rw [BitVec.ofNat_add, BitVec.add_comm]
  rw [hcol]
  rfl

/-- The terms of a sum over the 1536 hidden units, as a function on the naturals (nothing past 1535). -/
def onNat (f : Fin 1536 → EReal) (k : Nat) : EReal := if h : k < 1536 then f ⟨k, h⟩ else 0

theorem onNat_col (f : Fin 1536 → EReal) (o : Nat) (ho : o + 384 ≤ 1536) (c : Fin 384) (k : Nat) (hk : k = o + c.val) :
    onNat f k = f (colAt o ho c) := by
  subst hk
  have hc := c.isLt
  unfold onNat
  rw [dif_pos (by omega)]
  rfl

/-- The sum over the 1536 hidden units is the sum of its four blocks of 384, in order. -/
theorem four_blocks (f : Fin 1536 → EReal) :
    (((∑ c : Fin 384, f (colAt 0 (by omega) c)) + ∑ c : Fin 384, f (colAt 384 (by omega) c))
        + ∑ c : Fin 384, f (colAt 768 (by omega) c)) + ∑ c : Fin 384, f (colAt 1152 (by omega) c)
      = ∑ c : Fin 1536, f c := by
  have hs := BlockSum.sum_blocks 384 4 (onNat f)
  have hr : (∑ k : Fin (384 * 4), onNat f k.val) = ∑ c : Fin 1536, f c :=
    Finset.sum_congr rfl fun k _ => dif_pos k.isLt
  rw [← hr, ← hs, Finset.sum_range_succ, Finset.sum_range_succ, Finset.sum_range_succ, Finset.sum_range_one]
  refine congrArg₂ (· + ·) (congrArg₂ (· + ·) (congrArg₂ (· + ·) ?_ ?_) ?_) ?_
  · exact Finset.sum_congr rfl fun c _ => (onNat_col f 0 (by omega) c _ (by omega)).symm
  · exact Finset.sum_congr rfl fun c _ => (onNat_col f 384 (by omega) c _ (by omega)).symm
  · exact Finset.sum_congr rfl fun c _ => (onNat_col f 768 (by omega) c _ (by omega)).symm
  · exact Finset.sum_congr rfl fun c _ => (onNat_col f 1152 (by omega) c _ (by omega)).symm

/-- WHAT THE BODY LEAVES IN THE OUTPUT BLOCK, at entry (p, q): over all 1536 hidden units, the kept gate against w2's
    row q, plus b2's entry q. -/
theorem out_apply (x0 : Vec Ideal S512x1 .i32) (x1 : Vec Ideal S512x768 .f32) (x2 : Vec Ideal S1536x768 .f32)
    (x3 : Vec Ideal S1x1536 .f32) (x4 : Vec Ideal S768x1536 .f32) (x5 : Vec Ideal S1x768 .f32) (p : Fin 512) (q : Fin 768) :
    out0_6 x0 x1 x2 x3 x4 x5 (ix2 p q)
      = (∑ c : Fin 1536, blkHid x0 x1 x2 x3 p c * x4 (ix2 q c)) + x5 (ix2 (0 : Fin 1) q) := by
  unfold out0_6
  rw [View.canon_unit_zero hz]
  have c0 := chunk_at 0 (by omega) inb_S1536x768_S384x768_0_0 inb_S1x1536_S1x384_0_0 inb_S768x1536_S768x384_0_0 x0 x1 x2 x3 x4 p q
  have c1 := chunk_at 384 (by omega) inb_S1536x768_S384x768_384_0 inb_S1x1536_S1x384_0_384 inb_S768x1536_S768x384_0_384 x0 x1 x2 x3 x4 p q
  have c2 := chunk_at 768 (by omega) inb_S1536x768_S384x768_768_0 inb_S1x1536_S1x384_0_768 inb_S768x1536_S768x384_0_768 x0 x1 x2 x3 x4 p q
  have c3 := chunk_at 1152 (by omega) inb_S1536x768_S384x768_1152_0 inb_S1x1536_S1x384_0_1152 inb_S768x1536_S768x384_0_1152 x0 x1 x2 x3 x4 p q
  have hb : broadcastTo S512x768 (shapeCast S1x768 (View.ld x5 r0_14) shapeCasts_S1x768_S1x768) broadcasts_S1x768_S512x768 (ix2 p q)
      = x5 (ix2 (0 : Fin 1) q) := by
    rw [Cert.Lib.GatedChunk.rowBcast_apply, View.ld_unit_zero (S := S1x768) hz]
  refine (congrArg₂ (· + ·) (congrArg₂ (· + ·) (congrArg₂ (· + ·) (congrArg₂ (· + ·) c0 c1) c2) c3) hb).trans ?_
  rw [four_blocks (fun c => blkHid x0 x1 x2 x3 p c * x4 (ix2 q c))]

end Cert.KernelIdeal.HandValue

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KernelValue.lean ====
/-
  The kernel's run with its result array named.

  Grid point t stages tokens 512·t … 512·t + 511 of the expert words (as a column) and of x, and the whole of w1, b1
  (as a row), w2 and b2 (as a row); its body's result at (p, q) is the specification's entry at token 512·t + p and
  output q (KernelBlock.lean), so what point t writes back is block t of the specification's array.  The 64 blocks of
  512 rows cover the 32768 rows, so the array ends holding the specification's array.
-/
import proofs.«160457_g67937792688175_cont_sun_m_1187_11_alg».proof.Proof.Gen.KernelIdeal.Value
import proofs.«160457_g67937792688175_cont_sun_m_1187_11_alg».proof.Proof.KernelBlock
import proofs.«160457_g67937792688175_cont_sun_m_1187_11_alg».proof.Proof.LibLayout
import proofs.«160457_g67937792688175_cont_sun_m_1187_11_alg».proof.Proof.Spec
import Idealize.ShloMosaic.Lib.StableHlo.Run

noncomputable section

namespace Cert.KernelIdeal.HandValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The argument arrays, by their literal types -/

abbrev emA (c : Dev nD) : IVec S32768 32 := m ((c : Thread nD τ).loc main_arg1)
abbrev xA (c : Dev nD) : FVec Ideal S32768x768 .f32 := m ((c : Thread nD τ).loc main_arg0)
abbrev w1A (c : Dev nD) : FVec Ideal S1536x768 .f32 := m ((c : Thread nD τ).loc main_arg2)
abbrev b1A (c : Dev nD) : FVec Ideal S1536 .f32 := m ((c : Thread nD τ).loc main_arg3)
abbrev w2A (c : Dev nD) : FVec Ideal S768x1536 .f32 := m ((c : Thread nD τ).loc main_arg4)
abbrev b2A (c : Dev nD) : FVec Ideal S768 .f32 := m ((c : Thread nD τ).loc main_arg5)

/-- The specification's array of this device's arguments. -/
abbrev GA (c : Dev nD) : S32768x768.Idx → EReal :=
  Cert.Mlp.G (emA m c) (xA m c) (w1A m c) (b1A m c) (w2A m c) (b2A m c)

/-! ## What the region finds in the three reshaped arrays -/

/-- The expert words laid as a column. -/
theorem V_v0 (c : Dev nD) :
    (V m c main_v0 : S32768x1.Idx → BitVec 32) = shapeCast S32768x1 (emA m c) shapeCasts_S32768_S32768x1 := by
  dsimp only [V, hostOps0]; after_results; rfl

/-- The first bias laid as a row. -/
theorem V_v1 (c : Dev nD) :
    (V m c main_v1 : S1x1536.Idx → EReal) = shapeCast S1x1536 (b1A m c) shapeCasts_S1536_S1x1536 := by
  dsimp only [V, hostOps0]; after_results; rfl

/-- The second bias laid as a row. -/
theorem V_v2 (c : Dev nD) :
    (V m c main_v2 : S1x768.Idx → EReal) = shapeCast S1x768 (b2A m c) shapeCasts_S768_S1x768 := by
  dsimp only [V, hostOps0]; after_results; rfl

/-- A vector laid as a column [A, 1], at (n, 0), is the vector at n. -/
theorem colCast_apply {α : Type} {A : Nat} (v : (⟨1, ![A]⟩ : Shape).Idx → α)
    (h : (⟨1, ![A]⟩ : Shape).ShapeCasts ⟨2, ![A, 1]⟩) (n : Fin A) :
    shapeCast ⟨2, ![A, 1]⟩ v h (ix2 n (0 : Fin 1)) = v (ix1 n) := by
  refine shapeCast_apply v h (ix2 n (0 : Fin 1)) (ix1 n) ?_
  rw [Shape.rowMajor_val_two, Shape.rowMajor_val_one]
  show n.val = n.val * 1 + 0
  omega

/-! ## The printed index maps, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 64 := lt_of_lt_of_eq t.isLt N_0

/-- Token p of point t's block. -/
def rowOf (t : Fin cfg0.N) (p : Fin 512) : Fin 32768 :=
  ⟨t.val * 512 + p.val, by have := t_lt t; have := p.isLt; omega⟩

/-! ## Each window's block read at an entry -/

theorem rd0 (c : Dev nD) (t : Fin cfg0.N) (p : Fin 512) :
    iblk m c 0 t (ix2 p (0 : Fin 1)) = emA m c (ix1 (rowOf t p)) := by
  show V m c main_v0 (((cfg0.win 0).blk t).view.emb (ix2 p (0 : Fin 1))) = _
  rw [V_v0]
  have he : ((cfg0.win 0).blk t).view.emb (ix2 p (0 : Fin 1)) = ix2 (rowOf t p) (0 : Fin 1) := by
    obtain ⟨e0, e1, -⟩ := idx_facts t
    funext a; apply Fin.ext
    match a with
    | ⟨0, _⟩ => show win0_0.index t (0 : Fin 2) * 512 + 1 * p.val = t.val * 512 + p.val; omega
    | ⟨1, _⟩ => show win0_0.index t (1 : Fin 2) * 1 + 1 * 0 = 0; omega
  rw [he, colCast_apply]

theorem rd1 (c : Dev nD) (t : Fin cfg0.N) (p : Fin 512) (k : Fin 768) :
    iblk m c 1 t (ix2 p k) = xA m c (ix2 (rowOf t p) k) := by
  show V m c main_arg0 (((cfg0.win 1).blk t).view.emb (ix2 p k)) = _
  rw [V_main_arg0]
  have he : ((cfg0.win 1).blk t).view.emb (ix2 p k) = ix2 (rowOf t p) k := by
    obtain ⟨-, -, e0, e1, -⟩ := idx_facts t
    funext a; apply Fin.ext
    match a with
    | ⟨0, _⟩ => show win0_1.index t (0 : Fin 2) * 512 + 1 * p.val = t.val * 512 + p.val; omega
    | ⟨1, _⟩ => show win0_1.index t (1 : Fin 2) * 768 + 1 * k.val = k.val; omega
  rw [he]

theorem rd2 (c : Dev nD) (t : Fin cfg0.N) (h : Fin 1536) (k : Fin 768) :
    iblk m c 2 t (ix2 h k) = w1A m c (ix2 h k) := by
  show V m c main_arg2 (((cfg0.win 2).blk t).view.emb (ix2 h k)) = _
  rw [V_main_arg2]
  have he : ((cfg0.win 2).blk t).view.emb (ix2 h k) = ix2 h k := by
    obtain ⟨-, -, -, -, e0, e1, -⟩ := idx_facts t
    funext a; apply Fin.ext
    match a with
    | ⟨0, _⟩ => show win0_2.index t (0 : Fin 2) * 1536 + 1 * h.val = h.val; omega
    | ⟨1, _⟩ => show win0_2.index t (1 : Fin 2) * 768 + 1 * k.val = k.val; omega
  rw [he]

theorem rd3 (c : Dev nD) (t : Fin cfg0.N) (h : Fin 1536) :
    iblk m c 3 t (ix2 (0 : Fin 1) h) = b1A m c (ix1 h) := by
  show V m c main_v1 (((cfg0.win 3).blk t).view.emb (ix2 (0 : Fin 1) h)) = _
  rw [V_v1]
  have he : ((cfg0.win 3).blk t).view.emb (ix2 (0 : Fin 1) h) = ix2 (0 : Fin 1) h := by
    obtain ⟨-, -, -, -, -, -, e0, e1, -⟩ := idx_facts t
    funext a; apply Fin.ext
    match a with
    | ⟨0, _⟩ => show win0_3.index t (0 : Fin 2) * 1 + 1 * 0 = 0; omega
    | ⟨1, _⟩ => show win0_3.index t (1 : Fin 2) * 1536 + 1 * h.val = h.val; omega
  rw [he, Cert.Lib.Layout.rowCast_apply]

theorem rd4 (c : Dev nD) (t : Fin cfg0.N) (q : Fin 768) (h : Fin 1536) :
    iblk m c 4 t (ix2 q h) = w2A m c (ix2 q h) := by
  show V m c main_arg4 (((cfg0.win 4).blk t).view.emb (ix2 q h)) = _
  rw [V_main_arg4]
  have he : ((cfg0.win 4).blk t).view.emb (ix2 q h) = ix2 q h := by
    obtain ⟨-, -, -, -, -, -, -, -, e0, e1, -⟩ := idx_facts t
    funext a; apply Fin.ext
    match a with
    | ⟨0, _⟩ => show win0_4.index t (0 : Fin 2) * 768 + 1 * q.val = q.val; omega
    | ⟨1, _⟩ => show win0_4.index t (1 : Fin 2) * 1536 + 1 * h.val = h.val; omega
  rw [he]

theorem rd5 (c : Dev nD) (t : Fin cfg0.N) (q : Fin 768) :
    iblk m c 5 t (ix2 (0 : Fin 1) q) = b2A m c (ix1 q) := by
  show V m c main_v2 (((cfg0.win 5).blk t).view.emb (ix2 (0 : Fin 1) q)) = _
  rw [V_v2]
  have he : ((cfg0.win 5).blk t).view.emb (ix2 (0 : Fin 1) q) = ix2 (0 : Fin 1) q := by
    obtain ⟨-, -, -, -, -, -, -, -, -, -, e0, e1, -⟩ := idx_facts t
    funext a; apply Fin.ext
    match a with
    | ⟨0, _⟩ => show win0_5.index t (0 : Fin 2) * 1 + 1 * 0 = 0; omega
    | ⟨1, _⟩ => show win0_5.index t (1 : Fin 2) * 768 + 1 * q.val = q.val; omega
  rw [he, Cert.Lib.Layout.rowCast_apply]

theorem emb6 (t : Fin cfg0.N) (p : Fin 512) (q : Fin 768) :
    ((cfg0.win 6).blk t).view.emb (ix2 p q) = ix2 (rowOf t p) q := by
  obtain ⟨-, -, -, -, -, -, -, -, -, -, -, -, e0, e1⟩ := idx_facts t
  funext a; apply Fin.ext
  match a with
  | ⟨0, _⟩ => show win0_6.index t (0 : Fin 2) * 512 + 1 * p.val = t.val * 512 + p.val; omega
  | ⟨1, _⟩ => show win0_6.index t (1 : Fin 2) * 768 + 1 * q.val = q.val; omega

/-! ## What a point writes back, the cover, the array -/

/-- The body's result at (p, q) of point t's blocks is the specification's entry at token 512·t + p. -/
theorem point_entry (c : Dev nD) (t : Fin cfg0.N) (p : Fin 512) (q : Fin 768) :
    out0_6 (iblk m c 0 t) (iblk m c 1 t) (iblk m c 2 t) (iblk m c 3 t) (iblk m c 4 t) (iblk m c 5 t) (ix2 p q)
      = Cert.Mlp.entry (emA m c) (xA m c) (w1A m c) (b1A m c) (w2A m c) (b2A m c) (rowOf t p) q := by
  refine (out_apply (iblk m c 0 t) (iblk m c 1 t) (iblk m c 2 t) (iblk m c 3 t) (iblk m c 4 t) (iblk m c 5 t) p q).trans ?_
  unfold Cert.Mlp.entry
  refine congrArg₂ (· + ·) (Finset.sum_congr rfl fun h _ => congrArg₂ (· * ·) ?_ (rd4 m c t q h)) (rd5 m c t q)
  unfold blkHid Cert.Mlp.hid Cert.Mlp.pre
  rw [rd0 m c t p, rd3 m c t h]
  simp only [rd1 m c t p, rd2 m c t h]

/-- The same, against the specification's array read through point t's block. -/
theorem flushed_entry (c : Dev nD) (t : Fin cfg0.N) (p : Fin 512) (q : Fin 768) :
    out0_6 (iblk m c 0 t) (iblk m c 1 t) (iblk m c 2 t) (iblk m c 3 t) (iblk m c 4 t) (iblk m c 5 t) (ix2 p q)
      = GA m c (((cfg0.win 6).blk t).view.emb (ix2 p q)) := by
  rw [emb6, point_entry]
  rfl

/-- WHAT POINT t WRITES BACK is block t of the specification's array. -/
theorem flushed_eq (c : Dev nD) (t : Fin cfg0.N) :
    (dats m 0 c).flushed 6 t = ((cfg0.win 6).blk t).view.read (Elt Ideal) (GA m c) := by
  rw [Value.flushed6]
  funext j
  show out0_6 (iblk m c 0 t) (iblk m c 1 t) (iblk m c 2 t) (iblk m c 3 t) (iblk m c 4 t) (iblk m c 5 t) j
      = GA m c (((cfg0.win 6).blk t).view.emb j)
  have hj : j = ix2 (n0 := 512) (n1 := 768) (j 0) (j 1) := eq_ix2 (n0 := 512) (n1 := 768) j
  rw [hj]
  exact flushed_entry m c t (j 0) (j 1)

theorem mem_blk (t : Fin cfg0.N) (i : S32768x768.Idx) :
    i ∈ ((cfg0.win 6).blk t).view.set ↔ ∀ a : Fin 2, win0_6.index t a * S512x768.size a ≤ (i a).val
      ∧ (i a).val < win0_6.index t a * S512x768.size a + S512x768.size a := by
  show i ∈ ((View.whole main_v3).slice (win0_6.rect t)).set ↔ _
  rw [View.set_slice_whole, Rect.mem_set_unit]
  exact Iff.rfl

/-- Every entry of the array is in some point's block: row r is in block r / 512. -/
theorem cover (i : S32768x768.Idx) :
    ∃ t : Fin cfg0.N, (cfg0.win 6).flush t = true ∧ i ∈ ((cfg0.win 6).blk t).view.set := by
  have hi0 : (i 0).val < 32768 := (i 0).isLt
  have hi1 : (i 1).val < 768 := (i 1).isLt
  have hN : (i 0).val / 512 < cfg0.N := lt_of_lt_of_eq (by omega : (i 0).val / 512 < 64) N_0.symm
  refine ⟨⟨(i 0).val / 512, hN⟩, flush0_6 _, ?_⟩
  obtain ⟨-, -, -, -, -, -, -, -, -, -, -, -, e0, e1⟩ := idx_facts ⟨(i 0).val / 512, hN⟩
  rw [mem_blk]
  intro a
  match a with
  | ⟨0, _⟩ =>
    show win0_6.index ⟨(i 0).val / 512, hN⟩ (0 : Fin 2) * 512 ≤ (i 0).val
      ∧ (i 0).val < win0_6.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, hN⟩ (1 : Fin 2) * 768 ≤ (i 1).val
      ∧ (i 1).val < win0_6.index ⟨(i 0).val / 512, hN⟩ (1 : Fin 2) * 768 + 768
    rw [e1]; omega

/-- THE ARRAY after the run. -/
theorem final (c : Dev nD) : (dats m 0 c).arrAt 6 cfg0.N = GA m c :=
  (dats m 0 c).arrAt_eq_of_cover 6 (GA m c) (fun t _ => flushed_eq m c t) cover

/-- The run: the result array is the specification's array of the arguments, the arguments unchanged. -/
theorem run : θ_run defs (onTc (τ := τ) (main (F := Ideal))) ⟨m, fun _ => 0, ρ⟩ fun r => ∀ c : Dev nD,
      r.2.mem ((c : Thread nD τ).loc main_v3)
          = Cert.Mlp.G (m ((c : Thread nD τ).loc main_arg1)) (m ((c : Thread nD τ).loc main_arg0))
              (m ((c : Thread nD τ).loc main_arg2)) (m ((c : Thread nD τ).loc main_arg3))
              (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.HandValue

end
-- ==== Proof.RefTerm.lean ====
/-
  What the reference computes, as pure functions of its argument arrays (one definition per stretch of its operations,
  in the operations' own spelling): the table lookup of the kept widths, the pre-activations, the gate, the column
  mask, and the result.  The run of the reference ends at `refOut` of the arguments; reading `refOut` at an entry is
  another module's work.
-/
import proofs.«160457_g67937792688175_cont_sun_m_1187_11_alg».proof.Proof.Gen.ReferenceIdeal

noncomputable section

namespace Cert.ReferenceIdeal.Term

open Cert.ReferenceIdeal Cert.ReferenceIdeal.Gen Idealize.ShloMosaic

variable {F : FTy → Type} [FloatOps F]

/-- The table of kept widths, as the array the lookup reads. -/
def widths : IVec S8 32 := fun i => lit0 (S8.rowMajor i)

/-- The lookup `table[expert]` as it is lowered: a negative word is moved up by 8 first; a word then outside 0 … 7
    yields the most negative word; otherwise the table's entry at the (clamped) word. -/
def takeVal (em : IVec S32768 32) : IVec S32768 32 :=
  let neg : IVec S32768 1 := cmpi .slt em (broadcastInDim S32768 ![] bcast_S_S32768 (constantI S_ 32 0#32))
  let wrapped : IVec S32768 32 := select neg (addi em (broadcastInDim S32768 ![] bcast_S_S32768 (constantI S_ 32 8#32))) em
  let idx : IVec S32768x1 32 := broadcastInDim S32768x1 ![0] bcast_S32768_S32768x1_0 wrapped
  let ge0 : IVec S32768x1 1 := cmpi .sge idx (broadcastInDim S32768x1 ![] bcast_S_S32768x1 (constantI S_ 32 0#32))
  let le7 : IVec S32768x1 1 := cmpi .sle idx
    (broadcastInDim S32768x1 ![0, 1] bcast_S1x1_S32768x1_0_1 (broadcastInDim S1x1 ![1] bcast_S1_S1x1_1 (constantI S1 32 7#32)))
  let inb : IVec S32768 1 := Host.reduce IntOp.andi (andi ge0 le7) (constantI S_ 1 1#1) reducesTo_S32768x1_S32768_d1 h_S_
  let got : IVec S32768 32 := Host.gather gather_S8_S32768x1_S32768_n_0_n_n_0_1_1 widths idx
  select inb got (broadcastInDim S32768 ![] bcast_S_S32768 (constantI S_ 32 2147483648#32))

/-- The pre-activations x · w1ᵀ + b1. -/
def zRef (x : FVec F S32768x768 .f32) (w1 : FVec F S1536x768 .f32) (b1 : FVec F S1536 .f32) : FVec F S32768x1536 .f32 :=
  addf (Host.dotGeneral dot_S32768x768_S768x1536_S32768x1536_1_0_0_1_n_n none x
      (transpose S768x1536 [1, 0] w1 transposes_S1536x768_S768x1536_1_0))
    (broadcastInDim S32768x1536 ![0, 1] bcast_S1x1536_S32768x1536_0_1 (broadcastInDim S1x1536 ![1] bcast_S1536_S1x1536_1 b1))

/-- The column mask: 1 where the column's number is below the token's looked-up width, else 0. -/
def maskRef (em : IVec S32768 32) : FVec F S32768x1536 .f32 :=
  uitofp .f32 (cmpi .slt
    (broadcastInDim S32768x1536 ![0, 1] bcast_S1x1536_S32768x1536_0_1
      (broadcastInDim S1x1536 ![1] bcast_S1536_S1x1536_1 (iotaInDim S1536 32 0)))
    (broadcastInDim S32768x1536 ![0, 1] bcast_S32768x1_S32768x1536_0_1
      (broadcastInDim S32768x1 ![0] bcast_S32768_S32768x1_0 (takeVal em))))

/-- z · (1 / (1 + exp (−z))). -/
def siluRef (z : FVec F S32768x1536 .f32) : FVec F S32768x1536 .f32 :=
  mulf z (Host.divf (broadcastInDim S32768x1536 ![] bcast_S_S32768x1536 (constant S_ .f32 0x3F800000#32))
    (addf (broadcastInDim S32768x1536 ![] bcast_S_S32768x1536 (constant S_ .f32 0x3F800000#32)) (Host.exp (Host.negf z))))

/-- The reference's result: ((silu z · z) · mask) · w2ᵀ + b2. -/
def refOut (x : FVec F S32768x768 .f32) (em : IVec S32768 32) (w1 : FVec F S1536x768 .f32) (b1 : FVec F S1536 .f32)
    (w2 : FVec F S768x1536 .f32) (b2 : FVec F S768 .f32) : FVec F S32768x768 .f32 :=
  addf (Host.dotGeneral dot_S32768x1536_S1536x768_S32768x768_1_0_0_1_n_n none
      (mulf (mulf (siluRef (zRef x w1 b1)) (zRef x w1 b1)) (maskRef em))
      (transpose S1536x768 [1, 0] w2 transposes_S768x1536_S1536x768_1_0))
    (broadcastInDim S32768x768 ![0, 1] bcast_S1x768_S32768x768_0_1 (broadcastInDim S1x768 ![1] bcast_S768_S1x768_1 b2))

end Cert.ReferenceIdeal.Term

end
-- ==== Proof.RefRun.lean ====
/-
  The reference's run: its operations as one list, the functions it calls written out at their calls, and every weakly
  fair execution ending with the result buffer at `Term.refOut` of the argument arrays, the arguments unchanged.
-/
import proofs.«160457_g67937792688175_cont_sun_m_1187_11_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's fifty-one operations in program order, each function it calls written out at its call over that
    call's own buffers: the first pre-activation (the table of widths, the transposed first weight, the product, the
    bias broadcast twice, the sum); the table lookup's twenty-two (the wrap of a negative word by 8 — the select is the
    inner function's one operation —, the index as a column, the two range tests and their conjunction reduced along
    the unit axis, the gather, the fill word and the final select); the column mask (the column numbers, the looked-up
    widths broadcast, the comparison, its conversion to a float); the gate's nine (the negation, the exponential, one
    plus it, the reciprocal, the product with the argument); and the tail (the two products, the transposed second
    weight, the second product, its bias broadcast twice, the sum). -/
abbrev ops : List (HloOp τ sig (Elt F)) :=
  [
    nullary main_c (fun i => lit0 (S8.rowMajor i)),
    unary main_arg2 main_v0 ((transpose S768x1536 [1, 0] · transposes_S1536x768_S768x1536_1_0) : (⟨S1536x768, .f32⟩ : BufTy).Contents (Elt F) → (⟨S768x1536, .f32⟩ : BufTy).Contents (Elt F)),
    binary main_arg0 main_v0 main_v1 ((fun l r => Host.dotGeneral dot_S32768x768_S768x1536_S32768x1536_1_0_0_1_n_n none l r) : (⟨S32768x768, .f32⟩ : BufTy).Contents (Elt F) → (⟨S768x1536, .f32⟩ : BufTy).Contents (Elt F) → (⟨S32768x1536, .f32⟩ : BufTy).Contents (Elt F)),
    unary main_arg3 main_v2 (broadcastInDim S1x1536 ![1] bcast_S1536_S1x1536_1 : (⟨S1536, .f32⟩ : BufTy).Contents (Elt F) → (⟨S1x1536, .f32⟩ : BufTy).Contents (Elt F)),
    unary main_v2 main_v3 (broadcastInDim S32768x1536 ![0, 1] bcast_S1x1536_S32768x1536_0_1 : (⟨S1x1536, .f32⟩ : BufTy).Contents (Elt F) → (⟨S32768x1536, .f32⟩ : BufTy).Contents (Elt F)),
    binary main_v1 main_v3 main_v4 (addf : (⟨S32768x1536, .f32⟩ : BufTy).Contents (Elt F) → (⟨S32768x1536, .f32⟩ : BufTy).Contents (Elt F) → (⟨S32768x1536, .f32⟩ : BufTy).Contents (Elt F)),
    TRef.nullary main_call0.c (constantI S_ 32 0#32),
    TRef.unary main_call0.c main_call0.v0 (broadcastInDim S32768 ![] bcast_S_S32768),
    TRef.binary (.of main_arg1 : TRef sig ⟨S32768, .i32⟩) main_call0.v0 main_call0.v1 (cmpi .slt),
    TRef.nullary main_call0.c_0 (constantI S_ 32 8#32),
    TRef.unary main_call0.c_0 main_call0.v2 (broadcastInDim S32768 ![] bcast_S_S32768),
    TRef.binary (.of main_arg1 : TRef sig ⟨S32768, .i32⟩) main_call0.v2 main_call0.v3 addi,
    TRef.ternary main_call0.v1 main_call0.v3 (.of main_arg1 : TRef sig ⟨S32768, .i32⟩) main_call0.call0.v0 select,
    TRef.unary main_call0.call0.v0 main_call0.v5 (broadcastInDim S32768x1 ![0] bcast_S32768_S32768x1_0),
    TRef.nullary main_call0.c_1 (constantI S1 32 7#32),
    TRef.nullary main_call0.c_2 (constantI S_ 32 0#32),
    TRef.unary main_call0.c_2 main_call0.v6 (broadcastInDim S32768x1 ![] bcast_S_S32768x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S32768x1 ![0, 1] bcast_S1x1_S32768x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32768x1_S32768_d1 h_S_),
    TRef.binary (.of main_c : TRef sig ⟨S8, .i32⟩) main_call0.v5 main_call0.v13 (fun x i => Host.gather gather_S8_S32768x1_S32768_n_0_n_n_0_1_1 x i),
    TRef.nullary main_call0.c_4 (constantI S_ 32 2147483648#32),
    TRef.unary main_call0.c_4 main_call0.v14 (broadcastInDim S32768 ![] bcast_S_S32768),
    TRef.ternary main_call0.v12 main_call0.v13 main_call0.v14 main_call0.v15 select,
    nullary main_v6 (iotaInDim S1536 32 0),
    unary main_v6 main_v7 (broadcastInDim S1x1536 ![1] bcast_S1536_S1x1536_1 : (⟨S1536, .i32⟩ : BufTy).Contents (Elt F) → (⟨S1x1536, .i32⟩ : BufTy).Contents (Elt F)),
    unary main_v5 main_v8 (broadcastInDim S32768x1 ![0] bcast_S32768_S32768x1_0 : (⟨S32768, .i32⟩ : BufTy).Contents (Elt F) → (⟨S32768x1, .i32⟩ : BufTy).Contents (Elt F)),
    unary main_v7 main_v9 (broadcastInDim S32768x1536 ![0, 1] bcast_S1x1536_S32768x1536_0_1 : (⟨S1x1536, .i32⟩ : BufTy).Contents (Elt F) → (⟨S32768x1536, .i32⟩ : BufTy).Contents (Elt F)),
    unary main_v8 main_v10 (broadcastInDim S32768x1536 ![0, 1] bcast_S32768x1_S32768x1536_0_1 : (⟨S32768x1, .i32⟩ : BufTy).Contents (Elt F) → (⟨S32768x1536, .i32⟩ : BufTy).Contents (Elt F)),
    binary main_v9 main_v10 main_v11 (cmpi .slt : (⟨S32768x1536, .i32⟩ : BufTy).Contents (Elt F) → (⟨S32768x1536, .i32⟩ : BufTy).Contents (Elt F) → (⟨S32768x1536, .i1⟩ : BufTy).Contents (Elt F)),
    unary main_v11 main_v12 (uitofp .f32 : (⟨S32768x1536, .i1⟩ : BufTy).Contents (Elt F) → (⟨S32768x1536, .f32⟩ : BufTy).Contents (Elt F)),
    TRef.unary (.of main_v4 : TRef sig ⟨S32768x1536, .f32⟩) main_call1.v0 Host.negf,
    TRef.unary main_call1.v0 main_call1.v1 Host.exp,
    TRef.nullary main_call1.cst (constant S_ .f32 0x3F800000#32),
    TRef.unary main_call1.cst main_call1.v2 (broadcastInDim S32768x1536 ![] bcast_S_S32768x1536),
    TRef.binary main_call1.v2 main_call1.v1 main_call1.v3 addf,
    TRef.nullary main_call1.cst_0 (constant S_ .f32 0x3F800000#32),
    TRef.unary main_call1.cst_0 main_call1.v4 (broadcastInDim S32768x1536 ![] bcast_S_S32768x1536),
    TRef.binary main_call1.v4 main_call1.v3 main_call1.v5 Host.divf,
    TRef.binary (.of main_v4 : TRef sig ⟨S32768x1536, .f32⟩) main_call1.v5 main_call1.v6 mulf,
    binary main_v13 main_v4 main_v14 (mulf : (⟨S32768x1536, .f32⟩ : BufTy).Contents (Elt F) → (⟨S32768x1536, .f32⟩ : BufTy).Contents (Elt F) → (⟨S32768x1536, .f32⟩ : BufTy).Contents (Elt F)),
    binary main_v14 main_v12 main_v15 (mulf : (⟨S32768x1536, .f32⟩ : BufTy).Contents (Elt F) → (⟨S32768x1536, .f32⟩ : BufTy).Contents (Elt F) → (⟨S32768x1536, .f32⟩ : BufTy).Contents (Elt F)),
    unary main_arg4 main_v16 ((transpose S1536x768 [1, 0] · transposes_S768x1536_S1536x768_1_0) : (⟨S768x1536, .f32⟩ : BufTy).Contents (Elt F) → (⟨S1536x768, .f32⟩ : BufTy).Contents (Elt F)),
    binary main_v15 main_v16 main_v17 ((fun l r => Host.dotGeneral dot_S32768x1536_S1536x768_S32768x768_1_0_0_1_n_n none l r) : (⟨S32768x1536, .f32⟩ : BufTy).Contents (Elt F) → (⟨S1536x768, .f32⟩ : BufTy).Contents (Elt F) → (⟨S32768x768, .f32⟩ : BufTy).Contents (Elt F)),
    unary main_arg5 main_v18 (broadcastInDim S1x768 ![1] bcast_S768_S1x768_1 : (⟨S768, .f32⟩ : BufTy).Contents (Elt F) → (⟨S1x768, .f32⟩ : BufTy).Contents (Elt F)),
    unary main_v18 main_v19 (broadcastInDim S32768x768 ![0, 1] bcast_S1x768_S32768x768_0_1 : (⟨S1x768, .f32⟩ : BufTy).Contents (Elt F) → (⟨S32768x768, .f32⟩ : BufTy).Contents (Elt F)),
    binary main_v17 main_v19 main_v20 (addf : (⟨S32768x768, .f32⟩ : BufTy).Contents (Elt F) → (⟨S32768x768, .f32⟩ : BufTy).Contents (Elt F) → (⟨S32768x768, .f32⟩ : BufTy).Contents (Elt F)) ]

-- a chain of fifty-one steps, one level of nesting per step
set_option maxRecDepth 1024 in
/-- @main is that straight line: the called functions unfolded at their calls and the calls' records at their fields,
    both sides are one chain of steps once sequencing is re-associated. -/
theorem main_eq (c : Dev nD) : main (F := F) c = seq ops := by
  simp only [main, fn_take.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., nullary_bufs_sub .., unary_bufs_sub ..,
    unary_bufs_sub .., unary_bufs_sub .., unary_bufs_sub .., binary_bufs_sub .., unary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., binary_bufs_sub .., unary_bufs_sub .., binary_bufs_sub ..,
    unary_bufs_sub .., unary_bufs_sub .., binary_bufs_sub ..⟩

attribute [local irreducible] Host.reduce Host.gather in
set_option maxRecDepth 8192 in
set_option maxHeartbeats 1000000 in
/-- The fold at the result buffer is `Term.refOut` of the argument buffers' contents. Each operation's result at its own
    buffer is its function of its operands' contents and every other buffer keeps what it held, so the fold at the
    result is the operations' composed term; a called function's operation moves its operands and its result along
    the equation between a buffer's type and its value's, which at these buffers is the identity; and `Term.refOut`,
    its `let`s and its parts unfolded, is that same term (the table of widths by its definition). The equation
    holds whatever the reduction along the unit axis and the gather compute: both stay closed on the two sides. -/
theorem out_eq (V : Valuation τ sig (Elt F)) :
    after ops V (Proc.devRef .tc main_v20)
      = Term.refOut (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  simp only [TRef.ofBuf, TRef.toBuf, cast_eq, Term.refOut, Term.zRef, Term.siluRef, Term.maskRef, Term.takeVal]
  rfl

/-! No operation writes an argument's buffer: each keeps its launch contents. -/

theorem arg0_eq (V : Valuation τ sig (Elt F)) :
    after ops V (Proc.devRef .tc main_arg0) = V (Proc.devRef .tc main_arg0) := by
  after_results_simp

theorem arg1_eq (V : Valuation τ sig (Elt F)) :
    after ops V (Proc.devRef .tc main_arg1) = V (Proc.devRef .tc main_arg1) := by
  after_results_simp

theorem arg2_eq (V : Valuation τ sig (Elt F)) :
    after ops V (Proc.devRef .tc main_arg2) = V (Proc.devRef .tc main_arg2) := by
  after_results_simp

theorem arg3_eq (V : Valuation τ sig (Elt F)) :
    after ops V (Proc.devRef .tc main_arg3) = V (Proc.devRef .tc main_arg3) := by
  after_results_simp

theorem arg4_eq (V : Valuation τ sig (Elt F)) :
    after ops V (Proc.devRef .tc main_arg4) = V (Proc.devRef .tc main_arg4) := by
  after_results_simp

theorem arg5_eq (V : Valuation τ sig (Elt F)) :
    after ops V (Proc.devRef .tc main_arg5) = V (Proc.devRef .tc main_arg5) := by
  after_results_simp

/-- On the device, for any float values, from any memory with zero counters: every weakly fair execution of the
    reference terminates with the result buffer at `Term.refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = Term.refOut (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v20).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c))⟩)
    (run_seq scopedRefs_eq scopedSems_eq defs main (fun _ => ops) main_eq (fun _ => ops_sub) m ρ)

end Cert.ReferenceIdeal.HandRun

end
-- ==== Proof.TakeRead.lean ====
/-
  The lowered table lookup read at a token: for expert words in range it is the computed width.

  A word in 0 … 7 is not negative, so the wrap-around by 8 does not fire; laid as a column it passes both bounds, so the
  and-reduction over the column's single entry is 1; the gather reads the table at the word itself (the clamp into
  0 … 7 changes nothing), and the table's entry there is (word + 1) · 192.
-/
import proofs.«160457_g67937792688175_cont_sun_m_1187_11_alg».proof.Proof.RefTerm
import proofs.«160457_g67937792688175_cont_sun_m_1187_11_alg».proof.Proof.Spec
import Idealize.ShloMosaic.Lib.StableHlo.Predicate

noncomputable section

namespace Cert.ReferenceIdeal.TakeRead

open Cert.ReferenceIdeal Cert.ReferenceIdeal.Gen Idealize.ShloMosaic Idealize.ShloMosaic.ValueIdx
open Idealize.ShloMosaic.StableHlo

/-- The rank-1 index at coordinate k, in its two spellings. -/
theorem ix1_eq_ofFin {m : Nat} (k : Fin m) : (ix1 k : (⟨1, ![m]⟩ : Shape).Idx) = Shape.Idx.ofFin k := by
  funext d; match d with | ⟨0, _⟩ => exact Fin.ext rfl

/-- A left fold by "and" from 1 over one-bit words that are all 1 is 1. -/
theorem foldl_andi_ones {ι : Type} (f : ι → BitVec 1) :
    ∀ (l : List ι), (∀ a ∈ l, f a = 1#1) → l.foldl (fun r a => IntOp.andi r (f a)) 1#1 = 1#1
  | [], _ => rfl
  | a :: l, hl => by
    rw [List.foldl_cons, hl a (List.mem_cons_self), show IntOp.andi 1#1 1#1 = 1#1 from by decide]
    exact foldl_andi_ones f l (fun b hb => hl b (List.mem_cons_of_mem _ hb))

/-- The table the lookup reads holds, at position k, the k-th kept width. -/
theorem widths_ofFin (k : Fin 8) : Term.widths (Shape.Idx.ofFin k) = Cert.Mlp.widthTable k := by
  have hk : (S8.rowMajor (Shape.Idx.ofFin k) : Fin 8) = k := Fin.ext (by rw [Shape.rowMajor_val_one]; simp)
  show lit0 (S8.rowMajor (Shape.Idx.ofFin k)) = _
  rw [hk]
  fin_cases k <;> rfl

/-- A word that reads non-negative is not below 0: the wrap-around of a negative index does not fire. -/
theorem wrapped_apply (em : IVec S32768 32) (n : Fin 32768) (h0 : 0 ≤ (em (ix1 n)).toInt) :
    select (cmpi .slt em (broadcastInDim S32768 ![] bcast_S_S32768 (constantI S_ 32 0#32)))
      (addi em (broadcastInDim S32768 ![] bcast_S_S32768 (constantI S_ 32 8#32))) em (ix1 n) = em (ix1 n) := by
  rw [select_apply]
  have hneg : cmpi .slt em (broadcastInDim S32768 ![] bcast_S_S32768 (constantI S_ 32 0#32)) (ix1 n) = 0#1 := by
    show IntOp.cmpi .slt (em (ix1 n)) 0#32 = 0#1
    have hz : (0#32 : BitVec 32).toInt = 0 := by decide
    have hf : (em (ix1 n)).slt 0#32 = false := by
      rw [Bool.eq_false_iff]; intro hc
      rw [BitVec.slt_iff_toInt_lt, hz] at hc; omega
    unfold IntOp.cmpi
    rw [hf]; rfl
  rw [hneg, select_zero]

/-- For a word in 0 … 7 laid as a column, the and-reduction of "at least 0 and at most 7" over the column's one entry
    is 1: the only entry that reduces into position n is the word itself. -/
theorem inb_apply (wr : IVec S32768 32) (n : Fin 32768) (h0 : 0 ≤ (wr (ix1 n)).toInt) (h8 : (wr (ix1 n)).toInt < 8) :
    Host.reduce IntOp.andi
        (andi (cmpi .sge (broadcastInDim S32768x1 ![0] bcast_S32768_S32768x1_0 wr)
            (broadcastInDim S32768x1 ![] bcast_S_S32768x1 (constantI S_ 32 0#32)))
          (cmpi .sle (broadcastInDim S32768x1 ![0] bcast_S32768_S32768x1_0 wr)
            (broadcastInDim S32768x1 ![0, 1] bcast_S1x1_S32768x1_0_1
              (broadcastInDim S1x1 ![1] bcast_S1_S1x1_1 (constantI S1 32 7#32)))))
        (constantI S_ 1 1#1) reducesTo_S32768x1_S32768_d1 h_S_ (ix1 n) = 1#1 := by
  rw [Host.reduce_eq_foldl]
  show List.foldl _ 1#1 _ = 1#1
  apply foldl_andi_ones
  intro i hi
  rw [List.mem_filter] at hi
  have hd : reducesTo_S32768x1_S32768_d1.drop i = ix1 n := by simpa using hi.2
  have hi0 : (i 0).val = n.val := by
    have := Shape.ReducesTo.drop_apply_val_of_eq reducesTo_S32768x1_S32768_d1 i 0 0
    rw [hd] at this; exact this.symm
  have hi' : i = Predicate.ixP n := by
    funext b; match b with
    | ⟨0, _⟩ => exact Fin.ext hi0
    | ⟨1, hb⟩ =>
      have hlt : (i ⟨1, hb⟩).val < 1 := (i ⟨1, hb⟩).isLt
      exact Fin.ext (show (i ⟨1, hb⟩).val = 0 by omega)
  subst hi'
  show IntOp.andi (IntOp.cmpi .sge (broadcastInDim S32768x1 ![0] bcast_S32768_S32768x1_0 wr (Predicate.ixP n)) 0#32)
    (IntOp.cmpi .sle (broadcastInDim S32768x1 ![0] bcast_S32768_S32768x1_0 wr (Predicate.ixP n)) 7#32) = 1#1
  rw [Predicate.bcast_col1, ← ix1_eq_ofFin]
  have hz : (0#32 : BitVec 32).toInt = 0 := by decide
  have h7 : (7#32 : BitVec 32).toInt = 7 := by decide
  have hge : (0#32 : BitVec 32).sle (wr (ix1 n)) = true := by
    rw [BitVec.sle_iff_toInt_le, hz]; exact h0
  have hle : (wr (ix1 n)).sle 7#32 = true := by
    rw [BitVec.sle_iff_toInt_le, h7]; omega
  unfold IntOp.cmpi
  simp only [hge, hle]
  rfl

/-- The gather at position n reads the table at the start index of row n, read signed and clamped into 0 … 7. -/
theorem got_apply (idx : IVec S32768x1 32) (n : Fin 32768) :
    Host.gather gather_S8_S32768x1_S32768_n_0_n_n_0_1_1 Term.widths idx (ix1 n)
      = Term.widths (Shape.Idx.ofFin ⟨min (idx (Predicate.ixP n)).toInt.toNat (8 - 1), by omega⟩) := by
  rw [ix1_eq_ofFin]
  exact Predicate.gather_take gather_S8_S32768x1_S32768_n_0_n_n_0_1_1 rfl rfl rfl rfl Term.widths idx n (by decide)

theorem takeVal_apply (em : IVec S32768 32) (h : Cert.Mlp.InRange em) (n : Fin 32768) :
    Term.takeVal em (ix1 n) = Cert.Mlp.width (em (ix1 n)) := by
  obtain ⟨h0, h8⟩ := h n
  have hw := wrapped_apply em n h0
  dsimp only [Term.takeVal]
  rw [select_apply, inb_apply _ n (by rw [hw]; exact h0) (by rw [hw]; exact h8), select_one, got_apply, widths_ofFin]
  have hm : min (em (ix1 n)).toInt.toNat (8 - 1) = (em (ix1 n)).toInt.toNat := by omega
  rw [← Cert.Mlp.width_eq_table (em (ix1 n)) h0 h8]
  congr 1
  apply Fin.ext
  show min _ (8 - 1) = (em (ix1 n)).toInt.toNat
  rw [Predicate.bcast_col1, ← ix1_eq_ofFin, hw]; exact hm

end Cert.ReferenceIdeal.TakeRead

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.RefValue.lean ====
/-
  The reference's result read at an entry: for expert words in range it is the specification's array.
-/
import proofs.«160457_g67937792688175_cont_sun_m_1187_11_alg».proof.Proof.RefTerm
import proofs.«160457_g67937792688175_cont_sun_m_1187_11_alg».proof.Proof.Spec
import proofs.«160457_g67937792688175_cont_sun_m_1187_11_alg».proof.Proof.TakeRead
import proofs.«160457_g67937792688175_cont_sun_m_1187_11_alg».proof.Proof.LibMatmul
import Idealize.ShloMosaic.Lib.StableHlo.Predicate
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.ValueIdx

open Idealize.ShloMosaic.StableHlo.Predicate in
/-- The two spellings of entry (p, q) of a rectangle agree. -/
theorem ij_eq_ix2 {n m : Nat} (p : Fin n) (q : Fin m) : ij p q = ix2 p q := by
  funext d; match d with | ⟨0, _⟩ => rfl | ⟨1, _⟩ => rfl

/-- The two spellings of position p of a vector agree. -/
theorem ofFin_eq_ix1 {n : Nat} (p : Fin n) : Shape.Idx.ofFin p = ix1 p := by
  funext d; match d with | ⟨0, _⟩ => rfl

/-- The first product's dimension numbers are the plain rows-by-columns ones. -/
theorem dot1_eq : dot_S32768x768_S768x1536_S32768x1536_1_0_0_1_n_n = DotDims.plain 32768 768 1536 := rfl

/-- The second product's dimension numbers are the plain rows-by-columns ones. -/
theorem dot2_eq : dot_S32768x1536_S1536x768_S32768x768_1_0_0_1_n_n = DotDims.plain 32768 1536 768 := rfl

/-- The pre-activation array at (n, c) is Σ_k x[n, k] · w1[c, k] + b1[c]. -/
theorem zRef_apply (x : FVec Ideal S32768x768 .f32) (w1 : FVec Ideal S1536x768 .f32) (b1 : FVec Ideal S1536 .f32)
    (n : Fin 32768) (c : Fin 1536) :
    Term.zRef (F := Ideal) x w1 b1 (ix2 n c) = Cert.Mlp.pre x w1 b1 n c := by
  unfold Term.zRef Cert.Mlp.pre
  rw [addf_apply, dot1_eq]
  congr 1
  · show FloatOps.dotGeneral (DotDims.plain 32768 768 1536) none .single x _ (ix2 n c) = _
    rw [Cert.Lib.Matmul.dotGeneral_apply]
    refine Finset.sum_congr rfl fun k _ => ?_
    rw [transpose_ix2_apply]
  · rw [← ij_eq_ix2, StableHlo.Predicate.bcast_cols, ofFin_eq_ix1]

/-- The word 0x3F800000 denotes the number one. -/
theorem one_bits : Ideal.ofBits .f32 0x3F800000#32 = 1 := by
  simp [Ideal.ofBits, Ideal.ieee, -EReal.coe_mul]; norm_num

/-- The gate at an entry: z · (1 / (1 + exp (−z))) is z · logistic z. -/
theorem siluRef_apply (z : FVec Ideal S32768x1536 .f32) (j : S32768x1536.Idx) :
    Term.siluRef (F := Ideal) z j = z j * Ideal.logistic (z j) := by
  unfold Term.siluRef
  show z j * Ideal.div (Ideal.ofBits .f32 0x3F800000#32) (Ideal.ofBits .f32 0x3F800000#32 + Ideal.exp (-(z j))) = _
  rw [one_bits]
  rfl

/-- A one-bit word read unsigned, as an extended real, is 1 when set and 0 when clear. -/
theorem bit_toReal (b : Bool) : (((BitVec.ofBool b).toNat : ℝ) : EReal) = if b then 1 else 0 := by
  cases b <;> simp

/-- The column mask at (n, c): 1 when column c is below token n's kept width, read signed, else 0. -/
theorem maskRef_apply (em : IVec S32768 32) (h : Cert.Mlp.InRange em) (n : Fin 32768) (c : Fin 1536) :
    Term.maskRef (F := Ideal) em (ix2 n c)
      = if (BitVec.ofNat 32 c.val).slt (Cert.Mlp.width (em (ix1 n))) then 1 else 0 := by
  unfold Term.maskRef
  show (((IntOp.cmpi .slt
      (broadcastInDim S32768x1536 ![0, 1] bcast_S1x1536_S32768x1536_0_1
        (broadcastInDim S1x1536 ![1] bcast_S1536_S1x1536_1 (iotaInDim S1536 32 0)) (ix2 n c))
      (broadcastInDim S32768x1536 ![0, 1] bcast_S32768x1_S32768x1536_0_1
        (broadcastInDim S32768x1 ![0] bcast_S32768_S32768x1_0 (Term.takeVal em)) (ix2 n c))).toNat : ℝ) : EReal) = _
  rw [← ij_eq_ix2, StableHlo.Predicate.bcast_cols, StableHlo.Predicate.bcast_rows, StableHlo.Predicate.iota_apply,
    ofFin_eq_ix1, TakeRead.takeVal_apply em h n]
  exact bit_toReal _

/-- The hidden entry: (silu z · z · mask)[n, c] is the specification's hidden unit. -/
theorem hid_apply (x : FVec Ideal S32768x768 .f32) (em : IVec S32768 32) (w1 : FVec Ideal S1536x768 .f32)
    (b1 : FVec Ideal S1536 .f32) (h : Cert.Mlp.InRange em) (n : Fin 32768) (c : Fin 1536) :
    mulf (mulf (Term.siluRef (F := Ideal) (Term.zRef x w1 b1)) (Term.zRef x w1 b1)) (Term.maskRef em) (ix2 n c)
      = Cert.Mlp.hid em x w1 b1 n c := by
  rw [mulf_apply, mulf_apply, siluRef_apply, zRef_apply, maskRef_apply em h]
  unfold Cert.Mlp.hid Cert.Mlp.act
  split
  · rw [mul_one, mul_comm (Cert.Mlp.pre x w1 b1 n c) (Ideal.logistic _), mul_assoc, mul_comm (Ideal.logistic _)]
  · rw [mul_zero]

theorem refOut_eq (x : FVec Ideal S32768x768 .f32) (em : IVec S32768 32) (w1 : FVec Ideal S1536x768 .f32)
    (b1 : FVec Ideal S1536 .f32) (w2 : FVec Ideal S768x1536 .f32) (b2 : FVec Ideal S768 .f32) (h : Cert.Mlp.InRange em) :
    Term.refOut (F := Ideal) x em w1 b1 w2 b2 = Cert.Mlp.G em x w1 b1 w2 b2 := by
  funext j
  obtain ⟨n, i, rfl⟩ : ∃ (n : Fin 32768) (i : Fin 768), j = ix2 n i := ⟨j 0, j 1, eq_ix2 j⟩
  rw [Cert.Mlp.G_apply]
  unfold Term.refOut Cert.Mlp.entry
  rw [addf_apply, dot2_eq]
  congr 1
  · show FloatOps.dotGeneral (DotDims.plain 32768 1536 768) none .single _ _ (ix2 n i) = _
    rw [Cert.Lib.Matmul.dotGeneral_apply]
    refine Finset.sum_congr rfl fun c _ => ?_
    rw [transpose_ix2_apply, hid_apply x em w1 b1 h]
  · rw [← ij_eq_ix2, StableHlo.Predicate.bcast_cols, ofFin_eq_ix1]

end Cert.ReferenceIdeal.RefValue

end
-- ==== Proof.PreRange.lean ====
/-
  From the precondition to the range of the expert words.

  The printed precondition is one bit: the "and" of seven all-reductions.  The last two are "every expert word is at
  least 0" and "every expert word is below 8", both signed.  A conjunction of bits that is 1 has every conjunct 1, an
  all-reduction by "and" that is 1 has every element 1, and a signed comparison bit that is 1 is the comparison of the
  words' signed values.
-/
import proofs.«160457_g67937792688175_cont_sun_m_1187_11_alg».proof.Proof.Gen.Pre_finite_inputs
import proofs.«160457_g67937792688175_cont_sun_m_1187_11_alg».proof.Proof.Spec
import Idealize.ShloMosaic.Lib.StableHlo.Predicate
import Idealize.ShloMosaic.Lib.ReduceAll

noncomputable section

namespace Cert.PreRange

open Cert.Pre_finite_inputs Cert.Pre_finite_inputs.Gen Idealize.ShloMosaic Idealize.ShloMosaic.ValueIdx
open Idealize.ShloMosaic.StableHlo

/-- The scalar shape has one index. -/
instance : Subsingleton S_.Idx := ⟨fun a b => funext fun d => d.elim0⟩

/-- An elementwise "and" read at an index. -/
theorem andi_apply {s : Shape} {w : Nat} (x y : IVec s w) (i : s.Idx) : andi x y i = IntOp.andi (x i) (y i) := rfl

theorem inRange_of_pre (x : FVec Ideal S32768x768 .f32) (em : IVec S32768 32) (w1 : FVec Ideal S1536x768 .f32)
    (b1 : FVec Ideal S1536 .f32) (w2 : FVec Ideal S768x1536 .f32) (b2 : FVec Ideal S768 .f32)
    (h : Cert.Pre_finite_inputs.fn (F := Ideal) x em w1 b1 w2 b2 = fun _ => 1#1) : Cert.Mlp.InRange em := by
  have h1 := congrFun h ValueIdx.ix0
  dsimp only [Cert.Pre_finite_inputs.fn, Cert.Pre_finite_inputs.fn_part1] at h1
  rw [andi_apply, IntOp.andi_eq_one] at h1
  obtain ⟨h27, h30⟩ := h1
  rw [andi_apply, IntOp.andi_eq_one] at h27
  obtain ⟨-, h26⟩ := h27
  intro n
  have e26 := Host.reduce_andi_all _ _ _ _ _ h26 (ix1 n)
  have e30 := Host.reduce_andi_all _ _ _ _ _ h30 (ix1 n)
  change BitVec.ofBool ((0#32 : BitVec 32).sle (em (ix1 n))) = 1#1 at e26
  change BitVec.ofBool ((em (ix1 n)).slt (8#32 : BitVec 32)) = 1#1 at e30
  rw [Predicate.ofBool_eq_one_iff, BitVec.sle_iff_toInt_le] at e26
  rw [Predicate.ofBool_eq_one_iff, BitVec.slt_iff_toInt_lt] at e30
  have hz : (0#32 : BitVec 32).toInt = 0 := by decide
  have h8 : (8#32 : BitVec 32).toInt = 8 := by decide
  rw [hz] at e26
  rw [h8] at e30
  exact ⟨e26, e30⟩

end Cert.PreRange

end
-- ==== Proof.lean ====
/-
  A token-wise nested-width gated perceptron: a fused kernel that streams 512-token blocks and splits the hidden axis
  into four chunks of 384, against the plain array program that materialises the hidden activations and multiplies by a
  0/1 column mask.

  Both compute, at entry (n, i),   Σ_c hidden[n, c] · w2[i, c] + b2[i],   where hidden[n, c] is z · z · logistic z for
  z = Σ_k x[n, k] · w1[c, k] + b1[c] when column c is below the token's kept width and 0 otherwise (Spec.lean).  The
  kernel computes the width as (e + 1) · 192 from the expert word e; the reference looks it up in the eight-entry table
  192, 384, …, 1536, and for e outside 0 … 7 the lookup yields another word.  So the two agree exactly where every expert
  word is in 0 … 7, which the precondition states.  The logistic function is the same function on both sides, products
  on the extended reals commute and associate, a product with the mask's 1 or 0 is the factor or 0, and a sum over 1536
  columns is the sum of its four blocks of 384: no finiteness is needed for the equality itself.
-/
import proofs.«160457_g67937792688175_cont_sun_m_1187_11_alg».proof.Defs
import proofs.«160457_g67937792688175_cont_sun_m_1187_11_alg».proof.Proof.Gen.Kernel
import proofs.«160457_g67937792688175_cont_sun_m_1187_11_alg».proof.Proof.Gen.Kernel.Skeleton
import proofs.«160457_g67937792688175_cont_sun_m_1187_11_alg».proof.Proof.Gen.Kernel.Launch
import proofs.«160457_g67937792688175_cont_sun_m_1187_11_alg».proof.Proof.Gen.Kernel.Points
import proofs.«160457_g67937792688175_cont_sun_m_1187_11_alg».proof.Proof.Gen.Kernel.Frame
import proofs.«160457_g67937792688175_cont_sun_m_1187_11_alg».proof.Proof.Gen.KernelIdeal
import proofs.«160457_g67937792688175_cont_sun_m_1187_11_alg».proof.Proof.Gen.KernelIdeal.Skeleton
import proofs.«160457_g67937792688175_cont_sun_m_1187_11_alg».proof.Proof.Gen.KernelIdeal.Launch
import proofs.«160457_g67937792688175_cont_sun_m_1187_11_alg».proof.Proof.Gen.KernelIdeal.Points
import proofs.«160457_g67937792688175_cont_sun_m_1187_11_alg».proof.Proof.Gen.KernelIdeal.Frame
import proofs.«160457_g67937792688175_cont_sun_m_1187_11_alg».proof.Proof.Gen.ReferenceIdeal
import proofs.«160457_g67937792688175_cont_sun_m_1187_11_alg».proof.Proof.Gen.Pre_finite_inputs
import proofs.«160457_g67937792688175_cont_sun_m_1187_11_alg».proof.Proof.KernelValue
import proofs.«160457_g67937792688175_cont_sun_m_1187_11_alg».proof.Proof.RefRun
import proofs.«160457_g67937792688175_cont_sun_m_1187_11_alg».proof.Proof.RefValue
import proofs.«160457_g67937792688175_cont_sun_m_1187_11_alg».proof.Proof.PreRange
import Idealize.ShloMosaic.Adequacy
import Idealize.ShloMosaic.Init

noncomputable section

namespace Cert.Proof

open Idealize.ShloMosaic Idealize.SL.Sem

/-- The reference's frame: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.HandRun.run (F := Ideal) m ρ)

/-- Both idealized programs end at the specification's array of arguments that agree. -/
theorem algebraic : Cert.algebraic_KernelIdeal_ReferenceIdeal := by
  intro m ρ m' ρ' hpre hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2.1, (hagree c).2.2.2.2.2]
  exact Cert.ReferenceIdeal.RefValue.refOut_eq _ _ _ _ _ _ (Cert.PreRange.inRange_of_pre _ _ _ _ _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
